-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v70)) (v1 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_v71) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x256 : Shape := ⟨2, ![200000, 256]⟩
abbrev S256x128 : Shape := ⟨2, ![256, 128]⟩
abbrev S128 : Shape := ⟨1, ![128]⟩
abbrev S600000 : Shape := ⟨1, ![600000]⟩
abbrev S_ : Shape := ⟨0, ![]⟩

class Facts : Prop where
  bcast_S_S200000x256 : S_.BroadcastsInDim S200000x256 (![] : Fin 0 → Fin S200000x256.rank)
  reducesTo_S200000x256_S_d0_1 : S200000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S256x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S200000x256 .f32) (main_arg1 : FVec F S200000x256 .f32) (main_arg2 : FVec F S256x128 .f32) (main_arg3 : FVec F S128 .f32) (main_arg4 : FVec F S256x128 .f32) (main_arg5 : FVec F S128 .f32) (main_arg6 : IVec S600000 32) (main_arg7 : IVec S600000 32) (main_arg8 : IVec S600000 32) (main_arg9 : IVec S600000 32) (main_arg10 : IVec S600000 32) (main_arg11 : IVec S600000 32) : IVec S_ 1 :=
  let main_v0 : FVec F S200000x256 .f32 := Host.absf main_arg0
  let main_cst : FVec F S_ .f32 := constant S_ .f32 0x7F800000#32
  let main_v1 : FVec F S200000x256 .f32 := broadcastInDim S200000x256 ![] bcast_S_S200000x256 main_cst
  let main_v2 : IVec S200000x256 1 := cmpf .olt main_v0 main_v1
  let main_c : IVec S_ 1 := constantI S_ 1 1#1
  let main_v3 : IVec S_ 1 := (fun x v => Host.reduce IntOp.andi x v reducesTo_S200000x256_S_d0_1 h_S_) main_v2 main_c
  let main_v4 : FVec F S200000x256 .f32 := Host.absf main_arg1
  let main_cst_0 : FVec F S_ .f32 := constant S_ .f32 0x7F800000#32
  let main_v5 : FVec F S200000x256 .f32 := broadcastInDim S200000x256 ![] bcast_S_S200000x256 main_cst_0
  let main_v6 : IVec S200000x256 1 := cmpf .olt main_v4 main_v5
  let main_c_1 : IVec S_ 1 := constantI S_ 1 1#1
  let main_v7 : IVec S_ 1 := (fun x v => Host.reduce IntOp.andi x v reducesTo_S200000x256_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S200000x256 : Shape := ⟨2, ![200000, 256]⟩
abbrev S256x128 : Shape := ⟨2, ![256, 128]⟩
abbrev S128 : Shape := ⟨1, ![128]⟩
abbrev S600000 : Shape := ⟨1, ![600000]⟩
abbrev S1x128 : Shape := ⟨2, ![1, 128]⟩
abbrev S200000x128 : Shape := ⟨2, ![200000, 128]⟩
abbrev S4000x256 : Shape := ⟨2, ![4000, 256]⟩
abbrev S4000x128 : Shape := ⟨2, ![4000, 128]⟩
abbrev S_ : Shape := ⟨0, ![]⟩
abbrev S600000x1 : Shape := ⟨2, ![600000, 1]⟩
abbrev S600000x128 : Shape := ⟨2, ![600000, 128]⟩
abbrev S200000 : Shape := ⟨1, ![200000]⟩
abbrev S200000x1 : Shape := ⟨2, ![200000, 1]⟩
abbrev S6000x128 : Shape := ⟨2, ![6000, 128]⟩
abbrev S6000x1 : Shape := ⟨2, ![6000, 1]⟩
abbrev S6000 : Shape := ⟨1, ![6000]⟩

abbrev nBuf : Space → Nat
  | .hbm => 104
  | .vmem => 24
  | .smem => 0
  | _ => 0

abbrev bufTy : (tb : Table) → Fin (tcTables nBuf tb) → BufTy
  | .hbm, ⟨0, _⟩ => ⟨S200000x256, .f32⟩
  | .hbm, ⟨1, _⟩ => ⟨S200000x256, .f32⟩
  | .hbm, ⟨2, _⟩ => ⟨S256x128, .f32⟩
  | .hbm, ⟨3, _⟩ => ⟨S128, .f32⟩
  | .hbm, ⟨4, _⟩ => ⟨S256x128, .f32⟩
  | .hbm, ⟨5, _⟩ => ⟨S128, .f32⟩
  | .hbm, ⟨6, _⟩ => ⟨S600000, .i32⟩
  | .hbm, ⟨7, _⟩ => ⟨S600000, .i32⟩
  | .hbm, ⟨8, _⟩ => ⟨S600000, .i32⟩
  | .hbm, ⟨9, _⟩ => ⟨S600000, .i32⟩
  | .hbm, ⟨10, _⟩ => ⟨S600000, .i32⟩
  | .hbm, ⟨11, _⟩ => ⟨S600000, .i32⟩
  | .hbm, ⟨12, _⟩ => ⟨S1x128, .f32⟩
  | .hbm, ⟨13, _⟩ => ⟨S200000x128, .f32⟩
  | .hbm, ⟨14, _⟩ => ⟨S1x128, .f32⟩
  | .hbm, ⟨15, _⟩ => ⟨S200000x128, .f32⟩
  | .hbm, ⟨16, _⟩ => ⟨S_, .i32⟩
  | .hbm, ⟨17, _⟩ => ⟨S600000, .i32⟩
  | .hbm, ⟨18, _⟩ => ⟨S600000, .i1⟩
  | .hbm, ⟨19, _⟩ => ⟨S_, .i32⟩
  | .hbm, ⟨20, _⟩ => ⟨S600000, .i32⟩
  | .hbm, ⟨21, _⟩ => ⟨S600000, .i32⟩
  | .hbm, ⟨22, _⟩ => ⟨S600000, .i32⟩
  | .hbm, ⟨23, _⟩ => ⟨S600000x1, .i32⟩
  | .hbm, ⟨24, _⟩ => ⟨S600000x128, .f32⟩
  | .hbm, ⟨25, _⟩ => ⟨S_, .i32⟩
  | .hbm, ⟨26, _⟩ => ⟨S600000, .i32⟩
  | .hbm, ⟨27, _⟩ => ⟨S600000, .i1⟩
  | .hbm, ⟨28, _⟩ => ⟨S_, .i32⟩
  | .hbm, ⟨29, _⟩ => ⟨S600000, .i32⟩
  | .hbm, ⟨30, _⟩ => ⟨S600000, .i32⟩
  | .hbm, ⟨31, _⟩ => ⟨S600000, .i32⟩
  | .hbm, ⟨32, _⟩ => ⟨S600000x1, .i32⟩
  | .hbm, ⟨33, _⟩ => ⟨S600000x128, .f32⟩
  | .hbm, ⟨34, _⟩ => ⟨S_, .f32⟩
  | .hbm, ⟨35, _⟩ => ⟨S200000x128, .f32⟩
  | .hbm, ⟨36, _⟩ => ⟨S600000x1, .i32⟩
  | .hbm, ⟨37, _⟩ => ⟨S200000x128, .f32⟩
  | .hbm, ⟨38, _⟩ => ⟨S_, .f32⟩
  | .hbm, ⟨39, _⟩ => ⟨S600000, .f32⟩
  | .hbm, ⟨40, _⟩ => ⟨S_, .f32⟩
  | .hbm, ⟨41, _⟩ => ⟨S200000, .f32⟩
  | .hbm, ⟨42, _⟩ => ⟨S600000x1, .i32⟩
  | .hbm, ⟨43, _⟩ => ⟨S200000, .f32⟩
  | .hbm, ⟨44, _⟩ => ⟨S_, .f32⟩
  | .hbm, ⟨45, _⟩ => ⟨S200000, .f32⟩
  | .hbm, ⟨46, _⟩ => ⟨S200000, .f32⟩
  | .hbm, ⟨47, _⟩ => ⟨S200000x1, .f32⟩
  | .hbm, ⟨48, _⟩ => ⟨S200000x128, .f32⟩
  | .hbm, ⟨49, _⟩ => ⟨S200000x128, .f32⟩
  | .hbm, ⟨50, _⟩ => ⟨S_, .f32⟩
  | .hbm, ⟨51, _⟩ => ⟨S200000x128, .f32⟩
  | .hbm, ⟨52, _⟩ => ⟨S600000x1, .i32⟩
  | .hbm, ⟨53, _⟩ => ⟨S200000x128, .f32⟩
  | .hbm, ⟨54, _⟩ => ⟨S_, .f32⟩
  | .hbm, ⟨55, _⟩ => ⟨S600000, .f32⟩
  | .hbm, ⟨56, _⟩ => ⟨S_, .f32⟩
  | .hbm, ⟨57, _⟩ => ⟨S200000, .f32⟩
  | .hbm, ⟨58, _⟩ => ⟨S600000x1, .i32⟩
  | .hbm, ⟨59, _⟩ => ⟨S200000, .f32⟩
  | .hbm, ⟨60, _⟩ => ⟨S_, .f32⟩
  | .hbm, ⟨61, _⟩ => ⟨S200000, .f32⟩
  | .hbm, ⟨62, _⟩ => ⟨S200000, .f32⟩
  | .hbm, ⟨63, _⟩ => ⟨S200000x1, .f32⟩
  | .hbm, ⟨64, _⟩ => ⟨S200000x128, .f32⟩
  | .hbm, ⟨65, _⟩ => ⟨S200000x128, .f32⟩
  | .hbm, ⟨66, _⟩ => ⟨S_, .i32⟩
  | .hbm, ⟨67, _⟩ => ⟨S600000, .i32⟩
  | .hbm, ⟨68, _⟩ => ⟨S600000, .i1⟩
  | .hbm, ⟨69, _⟩ => ⟨S_, .i32⟩
  | .hbm, ⟨70, _⟩ => ⟨S600000, .i32⟩
  | .hbm, ⟨71, _⟩ => ⟨S600000, .i32⟩
  | .hbm, ⟨72, _⟩ => ⟨S600000, .i32⟩
  | .hbm, ⟨73, _⟩ => ⟨S600000x1, .i32⟩
  | .hbm, ⟨74, _⟩ => ⟨S600000x128, .f32⟩
  | .hbm, ⟨75, _⟩ => ⟨S_, .i32⟩
  | .hbm, ⟨76, _⟩ => ⟨S600000, .i32⟩
  | .hbm, ⟨77, _⟩ => ⟨S600000, .i1⟩
  | .hbm, ⟨78, _⟩ => ⟨S_, .i32⟩
  | .hbm, ⟨79, _⟩ => ⟨S600000, .i32⟩
  | .hbm, ⟨80, _⟩ => ⟨S600000, .i32⟩
  | .hbm, ⟨81, _⟩ => ⟨S600000, .i32⟩
  | .hbm, ⟨82, _⟩ => ⟨S600000x1, .i32⟩
  | .hbm, ⟨83, _⟩ => ⟨S600000x128, .f32⟩
  | .hbm, ⟨84, _⟩ => ⟨S_, .i32⟩
  | .hbm, ⟨85, _⟩ => ⟨S600000, .i32⟩
  | .hbm, ⟨86, _⟩ => ⟨S600000, .i1⟩
  | .hbm, ⟨87, _⟩ => ⟨S_, .i32⟩
  | .hbm, ⟨88, _⟩ => ⟨S600000, .i32⟩
  | .hbm, ⟨89, _⟩ => ⟨S600000, .i32⟩
  | .hbm, ⟨90, _⟩ => ⟨S600000, .i32⟩
  | .hbm, ⟨91, _⟩ => ⟨S600000x1, .i32⟩
  | .hbm, ⟨92, _⟩ => ⟨S600000x128, .f32⟩
  | .hbm, ⟨93, _⟩ => ⟨S_, .i32⟩
  | .hbm, ⟨94, _⟩ => ⟨S600000, .i32⟩
  | .hbm, ⟨95, _⟩ => ⟨S600000, .i1⟩
  | .hbm, ⟨96, _⟩ => ⟨S_, .i32⟩
  | .hbm, ⟨97, _⟩ => ⟨S600000, .i32⟩
  | .hbm, ⟨98, _⟩ => ⟨S600000, .i32⟩
  | .hbm, ⟨99, _⟩ => ⟨S600000, .i32⟩
  | .hbm, ⟨100, _⟩ => ⟨S600000x1, .i32⟩
  | .hbm, ⟨101, _⟩ => ⟨S600000x128, .f32⟩
  | .hbm, ⟨102, _⟩ => ⟨S600000x1, .f32⟩
  | .hbm, ⟨103, _⟩ => ⟨S600000x1, .f32⟩
  | .local _ .vmem, ⟨0, _⟩ => ⟨S4000x256, .f32⟩
  | .local _ .vmem, ⟨1, _⟩ => ⟨S4000x256, .f32⟩
  | .local _ .vmem, ⟨2, _⟩ => ⟨S256x128, .f32⟩
  | .local _ .vmem, ⟨3, _⟩ => ⟨S1x128, .f32⟩
  | .local _ .vmem, ⟨4, _⟩ => ⟨S4000x128, .f32⟩
  | .local _ .vmem, ⟨5, _⟩ => ⟨S4000x128, .f32⟩
  | .local _ .vmem, ⟨6, _⟩ => ⟨S4000x256, .f32⟩
  | .local _ .vmem, ⟨7, _⟩ => ⟨S4000x256, .f32⟩
  | .local _ .vmem, ⟨8, _⟩ => ⟨S256x128, .f32⟩
  | .local _ .vmem, ⟨9, _⟩ => ⟨S1x128, .f32⟩
  | .local _ .vmem, ⟨10, _⟩ => ⟨S4000x128, .f32⟩
  | .local _ .vmem, ⟨11, _⟩ => ⟨S4000x128, .f32⟩
  | .local _ .vmem, ⟨12, _⟩ => ⟨S6000x128, .f32⟩
  | .local _ .vmem, ⟨13, _⟩ => ⟨S6000x128, .f32⟩
  | .local _ .vmem, ⟨14, _⟩ => ⟨S6000x128, .f32⟩
  | .local _ .vmem, ⟨15, _⟩ => ⟨S6000x128, .f32⟩
  | .local _ .vmem, ⟨16, _⟩ => ⟨S6000x1, .f32⟩
  | .local _ .vmem, ⟨17, _⟩ => ⟨S6000x1, .f32⟩
  | .local _ .vmem, ⟨18, _⟩ => ⟨S6000x128, .f32⟩
  | .local _ .vmem, ⟨19, _⟩ => ⟨S6000x128, .f32⟩
  | .local _ .vmem, ⟨20, _⟩ => ⟨S6000x128, .f32⟩
  | .local _ .vmem, ⟨21, _⟩ => ⟨S6000x128, .f32⟩
  | .local _ .vmem, ⟨22, _⟩ => ⟨S6000x1, .f32⟩
  | .local _ .vmem, ⟨23, _⟩ => ⟨S6000x1, .f32⟩
  | _, _ => ⟨S200000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_6 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_7 : Ref sig .tc := ⟨.hbm, 54, rfl⟩
abbrev main_v33 : Ref sig .tc := ⟨.hbm, 55, rfl⟩
abbrev main_cst_8 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_9 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_10 : Ref sig .tc := ⟨.hbm, 66, rfl⟩
abbrev main_v42 : Ref sig .tc := ⟨.hbm, 67, rfl⟩
abbrev main_v43 : Ref sig .tc := ⟨.hbm, 68, rfl⟩
abbrev main_c_11 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_c_12 : Ref sig .tc := ⟨.hbm, 75, rfl⟩
abbrev main_v49 : Ref sig .tc := ⟨.hbm, 76, rfl⟩
abbrev main_v50 : Ref sig .tc := ⟨.hbm, 77, rfl⟩
abbrev main_c_13 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_c_14 : Ref sig .tc := ⟨.hbm, 84, rfl⟩
abbrev main_v56 : Ref sig .tc := ⟨.hbm, 85, rfl⟩
abbrev main_v57 : Ref sig .tc := ⟨.hbm, 86, rfl⟩
abbrev main_c_15 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_c_16 : Ref sig .tc := ⟨.hbm, 93, rfl⟩
abbrev main_v63 : Ref sig .tc := ⟨.hbm, 94, rfl⟩
abbrev main_v64 : Ref sig .tc := ⟨.hbm, 95, rfl⟩
abbrev main_c_17 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S6000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S6000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S6000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S6000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S6000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  shapeCasts_S128_S1x128 : S128.ShapeCasts S1x128
  inb_S4000x256_S4000x256_0_0 : ∀ a, (![0, 0] : Fin 2 → Nat) a + S4000x256.size a ≤ S4000x256.size a
  h_S4000x256 : 0 < S4000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  bcast_S_S600000 : S_.BroadcastsInDim S600000 (![] : Fin 0 → Fin S600000.rank)
  bcast_S600000_S600000x1_0 : S600000.BroadcastsInDim S600000x1 (![0] : Fin 1 → Fin S600000x1.rank)
  bcast_S_S200000x128 : S_.BroadcastsInDim S200000x128 (![] : Fin 0 → Fin S200000x128.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  inb_S6000x128_S6000x128_0_0 : ∀ a, (![0, 0] : Fin 2 → Nat) a + S6000x128.size a ≤ S6000x128.size a
  h_S6000x128 : 0 < S6000x128.numel
  shapeCasts_S6000x128_S6000x128 : S6000x128.ShapeCasts S6000x128
  reduces_S6000x128_S6000 : S6000x128.Reduces [1] S6000
  shapeCasts_S6000_S6000x1 : S6000.ShapeCasts S6000x1
  inb_S6000x1_S6000x1_0_0 : ∀ a, (![0, 0] : Fin 2 → Nat) a + S6000x1.size a ≤ S6000x1.size a
  h_S6000x1 : 0 < S6000x1.numel
  dot_S4000x256_S256x128_S4000x128_1_0_0_1_n_n_wf : DotDims.WF S4000x256 S256x128 S4000x128 [1] [0] [0] [1] [] []
  gather_S200000x128_S600000x1_S600000x128_1_0_n_n_0_1_1128_wf : GatherDims.WF S200000x128 S600000x1 S600000x128 [1] [0] [] [0] [] 1 ![1, 128]
  scatter_S200000x128_S600000x1_S600000x128_1_0_0_1_wf : ScatterDims.WF S200000x128 S600000x1 S600000x128 [1] [0] [0] 1
  scatter_S200000_S600000x1_S600000_n_0_0_1_wf : ScatterDims.WF S200000 S600000x1 S600000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S200000x256.size a
  hwx0_0 : ∀ i : grid0.Coords, EltTy.bits .f32 = 32 ∨ (Rect.block (s := S200000x256) S4000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S200000x128.size a
  hwx0_3 : ∀ i : grid0.Coords, EltTy.bits .f32 = 32 ∨ (Rect.block (s := S200000x128) S4000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x256.size a ≤ S200000x256.size a
  hwx1_0 : ∀ i : grid1.Coords, EltTy.bits .f32 = 32 ∨ (Rect.block (s := S200000x256) S4000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S200000x128.size a
  hwx1_3 : ∀ i : grid1.Coords, EltTy.bits .f32 = 32 ∨ (Rect.block (s := S200000x128) S4000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6000x128.size a ≤ S600000x128.size a
  hwx2_0 : ∀ i : grid2.Coords, EltTy.bits .f32 = 32 ∨ (Rect.block (s := S600000x128) S6000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S6000x128.size a ≤ S600000x128.size a
  hwx2_1 : ∀ i : grid2.Coords, EltTy.bits .f32 = 32 ∨ (Rect.block (s := S600000x128) S6000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S6000x1.size a ≤ S600000x1.size a
  hwx2_2 : ∀ i : grid2.Coords, EltTy.bits .f32 = 32 ∨ (Rect.block (s := S600000x1) S6000x1.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S6000x128.size a ≤ S600000x128.size a
  hwx3_0 : ∀ i : grid3.Coords, EltTy.bits .f32 = 32 ∨ (Rect.block (s := S600000x128) S6000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S6000x128.size a ≤ S600000x128.size a
  hwx3_1 : ∀ i : grid3.Coords, EltTy.bits .f32 = 32 ∨ (Rect.block (s := S600000x128) S6000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S6000x1.size a ≤ S600000x1.size a
  hwx3_2 : ∀ i : grid3.Coords, EltTy.bits .f32 = 32 ∨ (Rect.block (s := S600000x1) S6000x1.size (cc3_transform_2 i) (hinb3_2 i)).WholeWords (EltTy.packing .f32)

variable [Facts₀]

def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def gather_S200000x128_S600000x1_S600000x128_1_0_n_n_0_1_1128 : GatherDims S200000x128 S600000x1 S600000x128 where
  offsetDims := [1]
  collapsedSliceDims := [0]
  operandBatchingDims := []
  startIndicesBatchingDims := []
  startIndexMap := [0]
  indexVectorDim := 1
  sliceSizes := ![1, 128]
  wf := gather_S200000x128_S600000x1_S600000x128_1_0_n_n_0_1_1128_wf
def scatter_S200000x128_S600000x1_S600000x128_1_0_0_1 : ScatterDims S200000x128 S600000x1 S600000x128 where
  updateWindowDims := [1]
  insertedWindowDims := [0]
  scatterDimsToOperandDims := [0]
  indexVectorDim := 1
  wf := scatter_S200000x128_S600000x1_S600000x128_1_0_0_1_wf
def scatter_S200000_S600000x1_S600000_n_0_0_1 : ScatterDims S200000 S600000x1 S600000 where
  updateWindowDims := []
  insertedWindowDims := [0]
  scatterDimsToOperandDims := [0]
  indexVectorDim := 1
  wf := scatter_S200000_S600000x1_S600000_n_0_0_1_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S4000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S4000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v48) S6000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55) S6000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v70) S6000x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v62) S6000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v69) S6000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v71) S6000x1.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S200000x256 : Shape := ⟨2, ![200000, 256]⟩
abbrev S256x128 : Shape := ⟨2, ![256, 128]⟩
abbrev S128 : Shape := ⟨1, ![128]⟩
abbrev S600000 : Shape := ⟨1, ![600000]⟩
abbrev S200000x128 : Shape := ⟨2, ![200000, 128]⟩
abbrev S1x128 : Shape := ⟨2, ![1, 128]⟩
abbrev S_ : Shape := ⟨0, ![]⟩
abbrev S600000x1 : Shape := ⟨2, ![600000, 1]⟩
abbrev S600000x128 : Shape := ⟨2, ![600000, 128]⟩
abbrev S200000 : Shape := ⟨1, ![200000]⟩
abbrev S200000x1 : Shape := ⟨2, ![200000, 1]⟩

abbrev nBuf : Space → Nat
  | .hbm => 114
  | .vmem => 0
  | .smem => 0
  | _ => 0

abbrev bufTy : (tb : Table) → Fin (tcTables nBuf tb) → BufTy
  | .hbm, ⟨0, _⟩ => ⟨S200000x256, .f32⟩
  | .hbm, ⟨1, _⟩ => ⟨S200000x256, .f32⟩
  | .hbm, ⟨2, _⟩ => ⟨S256x128, .f32⟩
  | .hbm, ⟨3, _⟩ => ⟨S128, .f32⟩
  | .hbm, ⟨4, _⟩ => ⟨S256x128, .f32⟩
  | .hbm, ⟨5, _⟩ => ⟨S128, .f32⟩
  | .hbm, ⟨6, _⟩ => ⟨S600000, .i32⟩
  | .hbm, ⟨7, _⟩ => ⟨S600000, .i32⟩
  | .hbm, ⟨8, _⟩ => ⟨S600000, .i32⟩
  | .hbm, ⟨9, _⟩ => ⟨S600000, .i32⟩
  | .hbm, ⟨10, _⟩ => ⟨S600000, .i32⟩
  | .hbm, ⟨11, _⟩ => ⟨S600000, .i32⟩
  | .hbm, ⟨12, _⟩ => ⟨S200000x128, .f32⟩
  | .hbm, ⟨13, _⟩ => ⟨S1x128, .f32⟩
  | .hbm, ⟨14, _⟩ => ⟨S200000x128, .f32⟩
  | .hbm, ⟨15, _⟩ => ⟨S200000x128, .f32⟩
  | .hbm, ⟨16, _⟩ => ⟨S200000x128, .f32⟩
  | .hbm, ⟨17, _⟩ => ⟨S1x128, .f32⟩
  | .hbm, ⟨18, _⟩ => ⟨S200000x128, .f32⟩
  | .hbm, ⟨19, _⟩ => ⟨S200000x128, .f32⟩
  | .hbm, ⟨20, _⟩ => ⟨S_, .i32⟩
  | .hbm, ⟨21, _⟩ => ⟨S600000, .i32⟩
  | .hbm, ⟨22, _⟩ => ⟨S600000, .i1⟩
  | .hbm, ⟨23, _⟩ => ⟨S_, .i32⟩
  | .hbm, ⟨24, _⟩ => ⟨S600000, .i32⟩
  | .hbm, ⟨25, _⟩ => ⟨S600000, .i32⟩
  | .hbm, ⟨26, _⟩ => ⟨S600000, .i32⟩
  | .hbm, ⟨27, _⟩ => ⟨S600000x1, .i32⟩
  | .hbm, ⟨28, _⟩ => ⟨S600000x128, .f32⟩
  | .hbm, ⟨29, _⟩ => ⟨S_, .f32⟩
  | .hbm, ⟨30, _⟩ => ⟨S200000x128, .f32⟩
  | .hbm, ⟨31, _⟩ => ⟨S600000x1, .i32⟩
  | .hbm, ⟨32, _⟩ => ⟨S200000x128, .f32⟩
  | .hbm, ⟨33, _⟩ => ⟨S_, .f32⟩
  | .hbm, ⟨34, _⟩ => ⟨S600000, .f32⟩
  | .hbm, ⟨35, _⟩ => ⟨S_, .f32⟩
  | .hbm, ⟨36, _⟩ => ⟨S200000, .f32⟩
  | .hbm, ⟨37, _⟩ => ⟨S600000x1, .i32⟩
  | .hbm, ⟨38, _⟩ => ⟨S200000, .f32⟩
  | .hbm, ⟨39, _⟩ => ⟨S_, .f32⟩
  | .hbm, ⟨40, _⟩ => ⟨S200000, .f32⟩
  | .hbm, ⟨41, _⟩ => ⟨S200000, .f32⟩
  | .hbm, ⟨42, _⟩ => ⟨S200000x1, .f32⟩
  | .hbm, ⟨43, _⟩ => ⟨S200000x128, .f32⟩
  | .hbm, ⟨44, _⟩ => ⟨S200000x128, .f32⟩
  | .hbm, ⟨45, _⟩ => ⟨S_, .i32⟩
  | .hbm, ⟨46, _⟩ => ⟨S600000, .i32⟩
  | .hbm, ⟨47, _⟩ => ⟨S600000, .i1⟩
  | .hbm, ⟨48, _⟩ => ⟨S_, .i32⟩
  | .hbm, ⟨49, _⟩ => ⟨S600000, .i32⟩
  | .hbm, ⟨50, _⟩ => ⟨S600000, .i32⟩
  | .hbm, ⟨51, _⟩ => ⟨S600000, .i32⟩
  | .hbm, ⟨52, _⟩ => ⟨S600000x1, .i32⟩
  | .hbm, ⟨53, _⟩ => ⟨S600000x128, .f32⟩
  | .hbm, ⟨54, _⟩ => ⟨S_, .f32⟩
  | .hbm, ⟨55, _⟩ => ⟨S200000x128, .f32⟩
  | .hbm, ⟨56, _⟩ => ⟨S600000x1, .i32⟩
  | .hbm, ⟨57, _⟩ => ⟨S200000x128, .f32⟩
  | .hbm, ⟨58, _⟩ => ⟨S_, .f32⟩
  | .hbm, ⟨59, _⟩ => ⟨S600000, .f32⟩
  | .hbm, ⟨60, _⟩ => ⟨S_, .f32⟩
  | .hbm, ⟨61, _⟩ => ⟨S200000, .f32⟩
  | .hbm, ⟨62, _⟩ => ⟨S600000x1, .i32⟩
  | .hbm, ⟨63, _⟩ => ⟨S200000, .f32⟩
  | .hbm, ⟨64, _⟩ => ⟨S_, .f32⟩
  | .hbm, ⟨65, _⟩ => ⟨S200000, .f32⟩
  | .hbm, ⟨66, _⟩ => ⟨S200000, .f32⟩
  | .hbm, ⟨67, _⟩ => ⟨S200000x1, .f32⟩
  | .hbm, ⟨68, _⟩ => ⟨S200000x128, .f32⟩
  | .hbm, ⟨69, _⟩ => ⟨S200000x128, .f32⟩
  | .hbm, ⟨70, _⟩ => ⟨S_, .i32⟩
  | .hbm, ⟨71, _⟩ => ⟨S600000, .i32⟩
  | .hbm, ⟨72, _⟩ => ⟨S600000, .i1⟩
  | .hbm, ⟨73, _⟩ => ⟨S_, .i32⟩
  | .hbm, ⟨74, _⟩ => ⟨S600000, .i32⟩
  | .hbm, ⟨75, _⟩ => ⟨S600000, .i32⟩
  | .hbm, ⟨76, _⟩ => ⟨S600000, .i32⟩
  | .hbm, ⟨77, _⟩ => ⟨S600000x1, .i32⟩
  | .hbm, ⟨78, _⟩ => ⟨S600000x128, .f32⟩
  | .hbm, ⟨79, _⟩ => ⟨S_, .i32⟩
  | .hbm, ⟨80, _⟩ => ⟨S600000, .i32⟩
  | .hbm, ⟨81, _⟩ => ⟨S600000, .i1⟩
  | .hbm, ⟨82, _⟩ => ⟨S_, .i32⟩
  | .hbm, ⟨83, _⟩ => ⟨S600000, .i32⟩
  | .hbm, ⟨84, _⟩ => ⟨S600000, .i32⟩
  | .hbm, ⟨85, _⟩ => ⟨S600000, .i32⟩
  | .hbm, ⟨86, _⟩ => ⟨S600000x1, .i32⟩
  | .hbm, ⟨87, _⟩ => ⟨S600000x128, .f32⟩
  | .hbm, ⟨88, _⟩ => ⟨S600000x128, .f32⟩
  | .hbm, ⟨89, _⟩ => ⟨S_, .f32⟩
  | .hbm, ⟨90, _⟩ => ⟨S600000, .f32⟩
  | .hbm, ⟨91, _⟩ => ⟨S600000x1, .f32⟩
  | .hbm, ⟨92, _⟩ => ⟨S_, .i32⟩
  | .hbm, ⟨93, _⟩ => ⟨S600000, .i32⟩
  | .hbm, ⟨94, _⟩ => ⟨S600000, .i1⟩
  | .hbm, ⟨95, _⟩ => ⟨S_, .i32⟩
  | .hbm, ⟨96, _⟩ => ⟨S600000, .i32⟩
  | .hbm, ⟨97, _⟩ => ⟨S600000, .i32⟩
  | .hbm, ⟨98, _⟩ => ⟨S600000, .i32⟩
  | .hbm, ⟨99, _⟩ => ⟨S600000x1, .i32⟩
  | .hbm, ⟨100, _⟩ => ⟨S600000x128, .f32⟩
  | .hbm, ⟨101, _⟩ => ⟨S_, .i32⟩
  | .hbm, ⟨102, _⟩ => ⟨S600000, .i32⟩
  | .hbm, ⟨103, _⟩ => ⟨S600000, .i1⟩
  | .hbm, ⟨104, _⟩ => ⟨S_, .i32⟩
  | .hbm, ⟨105, _⟩ => ⟨S600000, .i32⟩
  | .hbm, ⟨106, _⟩ => ⟨S600000, .i32⟩
  | .hbm, ⟨107, _⟩ => ⟨S600000, .i32⟩
  | .hbm, ⟨108, _⟩ => ⟨S600000x1, .i32⟩
  | .hbm, ⟨109, _⟩ => ⟨S600000x128, .f32⟩
  | .hbm, ⟨110, _⟩ => ⟨S600000x128, .f32⟩
  | .hbm, ⟨111, _⟩ => ⟨S_, .f32⟩
  | .hbm, ⟨112, _⟩ => ⟨S600000, .f32⟩
  | .hbm, ⟨113, _⟩ => ⟨S600000x1, .f32⟩
  | _, _ => ⟨S200000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_c_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_1 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_4 : Ref sig .tc := ⟨.hbm, 45, rfl⟩
abbrev main_v27 : Ref sig .tc := ⟨.hbm, 46, rfl⟩
abbrev main_v28 : Ref sig .tc := ⟨.hbm, 47, rfl⟩
abbrev main_c_5 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_6 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_7 : Ref sig .tc := ⟨.hbm, 58, rfl⟩
abbrev main_v37 : Ref sig .tc := ⟨.hbm, 59, rfl⟩
abbrev main_cst_8 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_9 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_c_10 : Ref sig .tc := ⟨.hbm, 70, rfl⟩
abbrev main_v46 : Ref sig .tc := ⟨.hbm, 71, rfl⟩
abbrev main_v47 : Ref sig .tc := ⟨.hbm, 72, rfl⟩
abbrev main_c_11 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_c_12 : Ref sig .tc := ⟨.hbm, 79, rfl⟩
abbrev main_v53 : Ref sig .tc := ⟨.hbm, 80, rfl⟩
abbrev main_v54 : Ref sig .tc := ⟨.hbm, 81, rfl⟩
abbrev main_c_13 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_14 : Ref sig .tc := ⟨.hbm, 89, rfl⟩
abbrev main_v61 : Ref sig .tc := ⟨.hbm, 90, rfl⟩
abbrev main_v62 : Ref sig .tc := ⟨.hbm, 91, rfl⟩
abbrev main_c_15 : Ref sig .tc := ⟨.hbm, 92, rfl⟩
abbrev main_v63 : Ref sig .tc := ⟨.hbm, 93, rfl⟩
abbrev main_v64 : Ref sig .tc := ⟨.hbm, 94, rfl⟩
abbrev main_c_16 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_c_17 : Ref sig .tc := ⟨.hbm, 101, rfl⟩
abbrev main_v70 : Ref sig .tc := ⟨.hbm, 102, rfl⟩
abbrev main_v71 : Ref sig .tc := ⟨.hbm, 103, rfl⟩
abbrev main_c_18 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_19 : Ref sig .tc := ⟨.hbm, 111, rfl⟩
abbrev main_v78 : Ref sig .tc := ⟨.hbm, 112, rfl⟩
abbrev main_v79 : Ref sig .tc := ⟨.hbm, 113, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S200000x128 : S_.BroadcastsInDim S200000x128 (![] : Fin 0 → Fin S200000x128.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  reducesTo_S600000x128_S600000_d1 : S600000x128.ReducesTo [1] S600000
  h_S_ : 0 < S_.numel
  dot_S200000x256_S256x128_S200000x128_1_0_0_1_n_n_wf : DotDims.WF S200000x256 S256x128 S200000x128 [1] [0] [0] [1] [] []
  gather_S200000x128_S600000x1_S600000x128_1_0_n_n_0_1_1128_wf : GatherDims.WF S200000x128 S600000x1 S600000x128 [1] [0] [] [0] [] 1 ![1, 128]
  scatter_S200000x128_S600000x1_S600000x128_1_0_0_1_wf : ScatterDims.WF S200000x128 S600000x1 S600000x128 [1] [0] [0] 1
  scatter_S200000_S600000x1_S600000_n_0_0_1_wf : ScatterDims.WF S200000 S600000x1 S600000 [] [0] [0] 1

variable [Facts₀]

def dot_S200000x256_S256x128_S200000x128_1_0_0_1_n_n : DotDims S200000x256 S256x128 S200000x128 where
  lhsContracting := [1]
  rhsContracting := [0]
  lhsNonContracting := [0]
  rhsNonContracting := [1]
  lhsBatch := []
  rhsBatch := []
  wf := dot_S200000x256_S256x128_S200000x128_1_0_0_1_n_n_wf
def gather_S200000x128_S600000x1_S600000x128_1_0_n_n_0_1_1128 : GatherDims S200000x128 S600000x1 S600000x128 where
  offsetDims := [1]
  collapsedSliceDims := [0]
  operandBatchingDims := []
  startIndicesBatchingDims := []
  startIndexMap := [0]
  indexVectorDim := 1
  sliceSizes := ![1, 128]
  wf := gather_S200000x128_S600000x1_S600000x128_1_0_n_n_0_1_1128_wf
def scatter_S200000x128_S600000x1_S600000x128_1_0_0_1 : ScatterDims S200000x128 S600000x1 S600000x128 where
  updateWindowDims := [1]
  insertedWindowDims := [0]
  scatterDimsToOperandDims := [0]
  indexVectorDim := 1
  wf := scatter_S200000x128_S600000x1_S600000x128_1_0_0_1_wf
def scatter_S200000_S600000x1_S600000_n_0_0_1 : ScatterDims S200000 S600000x1 S600000 where
  updateWindowDims := []
  insertedWindowDims := [0]
  scatterDimsToOperandDims := [0]
  indexVectorDim := 1
  wf := scatter_S200000_S600000x1_S600000_n_0_0_1_wf

class Facts : Prop extends Facts₀ where

variable [Facts]
-- ==== Proof.LibPlainProduct.lean ====
/-
  A matrix product with one contracted axis, read at an entry over the extended reals: the kernel's product into a
  zero accumulator and the host's product are both the plain sum, over the contracted coordinate, of the left
  operand's row entry times the right operand's column entry — whatever formats the operands carry.
-/
import Idealize.ShloMosaic.Lib.ValueIdx
import Idealize.ShloMosaic.PureOps.Ideal.Laws

namespace Cert.PlainProduct

open Idealize.ShloMosaic Idealize.ShloMosaic.ValueIdx

variable {M K N : ℕ}

/-- The left operand is read at the output's row … -/
theorem lhs_row (j : (⟨2, ![M, N]⟩ : Shape).Idx) (q : (DotDims.plain M K N).contr.Idx) :
    ((DotDims.plain M K N).lhsIdx j q 0).val = (j 0).val := rfl
/-- … and the contracted coordinate; -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- the right operand at the contracted coordinate … -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and the output's column. -/
theorem rhs_col (j : (⟨2, ![M, N]⟩ : Shape).Idx) (q : (DotDims.plain M K N).contr.Idx) :
    ((DotDims.plain M K N).rhsIdx j q 1).val = (j 1).val := rfl

/-- The sum over the contraction's index set is the sum over the K values of its one coordinate. -/
theorem sum_contr {φ₁ φ₂ : FTy} (lhs : FVec Ideal ⟨2, ![M, K]⟩ φ₁) (rhs : FVec Ideal ⟨2, ![K, N]⟩ φ₂) (p : Fin M) (q : Fin N) :
    (∑ k : (DotDims.plain M K N).contr.Idx,
        lhs ((DotDims.plain M K N).lhsIdx (ix2 p q) k) * rhs ((DotDims.plain M K N).rhsIdx (ix2 p q) k))
      = ∑ x : Fin K, lhs (ix2 p x) * rhs (ix2 x q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

/-- The kernel's product into the zero accumulator, at (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    matmul (F := Ideal) (DotDims.plain M K N) prec lhs rhs (constant (F := Ideal) ⟨2, ![M, N]⟩ .f32 0x00000000#32) (ix2 p q)
      = ∑ x : Fin K, lhs (ix2 p x) * rhs (ix2 x q) :=
  (Ideal.matmul_constant_zero_apply (DotDims.plain M K N) prec lhs rhs (ix2 p q)).trans (sum_contr lhs rhs p q)

/-- The host's product, at (p, q). -/
theorem dotGeneral_apply {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral (F := Ideal) (DotDims.plain M K N) prec lhs rhs (ix2 p q)
      = ∑ x : Fin K, lhs (ix2 p x) * rhs (ix2 x q) := by
  simp only [Host.dotGeneral]
  exact (Ideal.dotGeneral_apply (DotDims.plain M K N) prec _ lhs rhs (ix2 p q)).trans (sum_contr lhs rhs p q)

/-- The product of an [M, K] array by a [K, N] array as one array: entry (p, q) is the sum over x of lhs (p, x) · rhs (x, q). -/
noncomputable def prod {φ₁ φ₂ : FTy} (lhs : FVec Ideal ⟨2, ![M, K]⟩ φ₁) (rhs : FVec Ideal ⟨2, ![K, N]⟩ φ₂) :
    FVec Ideal ⟨2, ![M, N]⟩ .f32 :=
  fun i => ∑ x : Fin K, lhs (ix2 (i 0) x) * rhs (ix2 x (i 1))

theorem prod_apply {φ₁ φ₂ : FTy} (lhs : FVec Ideal ⟨2, ![M, K]⟩ φ₁) (rhs : FVec Ideal ⟨2, ![K, N]⟩ φ₂) (p : Fin M) (q : Fin N) :
    prod lhs rhs (ix2 p q) = ∑ x : Fin K, lhs (ix2 p x) * rhs (ix2 x q) := rfl

/-- The host's product is that array. -/
theorem dotGeneral_eq_prod {φ₁ φ₂ : FTy} (prec : Option ContractPrecision)
    (lhs : FVec Ideal ⟨2, ![M, K]⟩ φ₁) (rhs : FVec Ideal ⟨2, ![K, N]⟩ φ₂) :
    Host.dotGeneral (F := Ideal) (DotDims.plain M K N) prec lhs rhs = prod lhs rhs := by
  funext i
  obtain ⟨p, q, rfl⟩ : ∃ (p : Fin M) (q : Fin N), i = ix2 p q := ⟨i 0, i 1, eq_ix2 i⟩
  exact dotGeneral_apply prec lhs rhs p q

end Cert.PlainProduct
-- ==== Proof.LibTile.lean ====
/-
  Operations on a rank-2 tile read at an index given by coordinates: the two column forms of a
  keep-dimensions reduction (a vector as a column, a column spread along the rows), a sum along the rows
  or the columns as a sum over one coordinate, the column of row norms, and a matrix product with one
  contracted axis as a sum over that axis.
-/
import Idealize.ShloMosaic.Lib.ValueIdx
import Idealize.ShloMosaic.Lib.ValueLayout
import Idealize.ShloMosaic.Lib.Pipeline.Value
import Idealize.ShloMosaic.PureOps.Ideal.Laws

namespace Cert.Tile

open Idealize.ShloMosaic Idealize.ShloMosaic.ValueIdx

variable {α : Type}

/-! ## Layout -/

/-- An [a] array cast to [a, 1] reads, at (i, u), the operand at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column spread to [a, b] reads, at (p, c), the column at p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Sums along one axis -/

/-- The entries of each row of an [a, b] tile summed: at p, the sum over the b columns. -/
theorem rowSum_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = 0x00000000#32) (p : Fin a) :
    multiReduction (F := Ideal) .add [1] ⟨1, ![a]⟩ src 0x00000000#32 h hφ hacc (ix1 p)
      = ∑ k : Fin b, src (ix2 p k) := by
  refine (Ideal.multiReduction_add_single src 0x00000000#32 h hφ hacc (ix1 p)).trans ?_
  exact Finset.sum_congr rfl fun k _ => congrArg src (funext fun ax => Fin.ext (by
    match ax with
    | ⟨0, _⟩ => rfl
    | ⟨1, _⟩ => rfl))

/-- The entries of each column of an [a, b] tile summed: at q, the sum over the a rows. -/
theorem colSum_apply {a b : ℕ} (src : FVec Ideal ⟨2, ![a, b]⟩ .f32)
    (h : Shape.Reduces ⟨2, ![a, b]⟩ [0] ⟨1, ![b]⟩) (hφ : FKind.Formats .f32)
    (hacc : (0x00000000#32 : BitVec 32) = 0x00000000#32) (q : Fin b) :
    multiReduction (F := Ideal) .add [0] ⟨1, ![b]⟩ src 0x00000000#32 h hφ hacc (ix1 q)
      = ∑ k : Fin a, src (ix2 k q) := by
  refine (Ideal.multiReduction_add_single src 0x00000000#32 h hφ hacc (ix1 q)).trans ?_
  exact Finset.sum_congr rfl fun k _ => congrArg src (funext fun ax => Fin.ext (by
    match ax with
    | ⟨0, _⟩ => rfl
    | ⟨1, _⟩ => rfl))

/-- The row sums kept as a column: at (p, u), the sum over the b columns of row p. -/
theorem rowSumCol_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = 0x00000000#32)
    (hc : (⟨1, ![a]⟩ : Shape).ShapeCasts ⟨2, ![a, 1]⟩) (p : Fin a) (u : Fin 1) :
    shapeCast ⟨2, ![a, 1]⟩ (multiReduction (F := Ideal) .add [1] ⟨1, ![a]⟩ src 0x00000000#32 h hφ hacc) hc (ix2 p u)
      = ∑ k : Fin b, src (ix2 p k) :=
  (shapeCast_a_a1_apply _ hc p u).trans (rowSum_apply src h hφ hacc p)

/-- A square root read at an index. -/
theorem sqrt_apply {s : Shape} {φ : FTy} (v : FVec Ideal s φ) (i : s.Idx) : sqrt v i = Ideal.sqrt (v i) := rfl

/-- The column of Euclidean row norms spread along rows of length c: at (p, x), the square root of
    the sum of the squares of row p. -/
theorem normCol_apply {a b c : ℕ} (X : FVec Ideal ⟨2, ![a, b]⟩ .f32)
    (h : Shape.Reduces ⟨2, ![a, b]⟩ [1] ⟨1, ![a]⟩) (hφ : FKind.Formats .f32)
    (hacc : (0x00000000#32 : BitVec 32) = 0x00000000#32)
    (hc : (⟨1, ![a]⟩ : Shape).ShapeCasts ⟨2, ![a, 1]⟩)
    (hb : (⟨2, ![a, 1]⟩ : Shape).Broadcasts ⟨2, ![a, c]⟩) (p : Fin a) (x : Fin c) :
    broadcastTo ⟨2, ![a, c]⟩
        (sqrt (shapeCast ⟨2, ![a, 1]⟩ (multiReduction (F := Ideal) .add [1] ⟨1, ![a]⟩ (mulf X X) 0x00000000#32 h hφ hacc) hc))
        hb (ix2 p x)
      = Ideal.sqrt (∑ k : Fin b, X (ix2 p k) * X (ix2 p k)) :=
  (broadcastTo_a1_ab_apply _ hb p x).trans
    (congrArg Ideal.sqrt (rowSumCol_apply (mulf X X) h hφ hacc hc p 0))

/-! ## A matrix product with one contracted axis -/

theorem lhs_plain_0 {M K N : ℕ} (j : (⟨2, ![M, N]⟩ : Shape).Idx) (q : (DotDims.plain M K N).contr.Idx) :
    ((DotDims.plain M K N).lhsIdx j q 0).val = (j 0).val := rfl
theorem lhs_plain_1 {M K N : ℕ} (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
theorem rhs_plain_0 {M K N : ℕ} (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
theorem rhs_plain_1 {M K N : ℕ} (j : (⟨2, ![M, N]⟩ : Shape).Idx) (q : (DotDims.plain M K N).contr.Idx) :
    ((DotDims.plain M K N).rhsIdx j q 1).val = (j 1).val := rfl

/-- An [M, K] by [K, N] product into the zero accumulator reads, at (p, q), the sum over the K
    contracted coordinates of the left operand at (p, x) times the right at (x, q). -/
theorem matmul_plain_apply {M K N : ℕ} (prec : Option ContractPrecision)
    (lhs : FVec Ideal ⟨2, ![M, K]⟩ .f32) (rhs : FVec Ideal ⟨2, ![K, N]⟩ .f32) (p : Fin M) (q : Fin N) :
    matmul (F := Ideal) (DotDims.plain M K N) prec lhs rhs (constant (F := Ideal) ⟨2, ![M, N]⟩ .f32 0x00000000#32) (ix2 p q)
      = ∑ x : Fin K, lhs (ix2 p x) * rhs (ix2 x q) := by
  refine (Ideal.matmul_constant_zero_apply (DotDims.plain M K N) prec lhs rhs (ix2 p q)).trans ?_
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_plain_0 _ _
      | ⟨1, _⟩ => exact (lhs_plain_1 _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_plain_0 _ _).trans hk
      | ⟨1, _⟩ => exact rhs_plain_1 _ _)
  rw [el, er]

/-! ## The patterns of one layer -/

/-- A tile with each row divided by its Euclidean norm: at (p, x), the entry over the square root of
    the sum of the squares of row p. -/
theorem normalize_apply {a b : ℕ} (X : FVec Ideal ⟨2, ![a, b]⟩ .f32)
    (h : Shape.Reduces ⟨2, ![a, b]⟩ [1] ⟨1, ![a]⟩) (hφ : FKind.Formats .f32)
    (hacc : (0x00000000#32 : BitVec 32) = 0x00000000#32)
    (hc : (⟨1, ![a]⟩ : Shape).ShapeCasts ⟨2, ![a, 1]⟩)
    (hb : (⟨2, ![a, 1]⟩ : Shape).Broadcasts ⟨2, ![a, b]⟩) (p : Fin a) (x : Fin b) :
    divf X (broadcastTo ⟨2, ![a, b]⟩
        (sqrt (shapeCast ⟨2, ![a, 1]⟩ (multiReduction (F := Ideal) .add [1] ⟨1, ![a]⟩ (mulf X X) 0x00000000#32 h hφ hacc) hc))
        hb) (ix2 p x)
      = Ideal.div (X (ix2 p x)) (Ideal.sqrt (∑ k : Fin b, X (ix2 p k) * X (ix2 p k))) :=
  congrArg (Ideal.div (X (ix2 p x))) (normCol_apply X h hφ hacc hc hb p x)

/-- A dense layer with a rectifier and a multiplicative mask row, the weights given transposed:
    at (p, q), max (Σₓ X p x · WT x q + b q) 0 · mask q. -/
theorem dense_apply {M K N : ℕ} (prec : Option ContractPrecision)
    (X : FVec Ideal ⟨2, ![M, K]⟩ .f32) (WT : FVec Ideal ⟨2, ![K, N]⟩ .f32) (b mk : FVec Ideal ⟨2, ![1, N]⟩ .f32)
    (hw : (⟨2, ![K, N]⟩ : Shape).ShapeCasts ⟨2, ![K, N]⟩)
    (hb hm : (⟨2, ![1, N]⟩ : Shape).ShapeCasts ⟨2, ![1, N]⟩)
    (hbb hmb : (⟨2, ![1, N]⟩ : Shape).Broadcasts ⟨2, ![M, N]⟩) (p : Fin M) (q : Fin N) :
    mulf (maximumf
          (addf (matmul (F := Ideal) (DotDims.plain M K N) prec X (shapeCast ⟨2, ![K, N]⟩ WT hw)
                  (constant (F := Ideal) ⟨2, ![M, N]⟩ .f32 0x00000000#32))
                (broadcastTo ⟨2, ![M, N]⟩ (shapeCast ⟨2, ![1, N]⟩ b hb) hbb))
          (broadcast ⟨2, ![M, N]⟩ (Scalar.ofBits (F := Ideal) .f32 0x00000000#32)))
        (broadcastTo ⟨2, ![M, N]⟩ (shapeCast ⟨2, ![1, N]⟩ mk hm) hmb) (ix2 p q)
      = max ((∑ x : Fin K, X (ix2 p x) * WT (ix2 x q)) + b (ix2 (0 : Fin 1) q)) 0 * mk (ix2 (0 : Fin 1) q) :=
  congrArg₂ (· * ·)
    (congrArg₂ max
      (congrArg₂ (· + ·)
        ((matmul_plain_apply prec X _ p q).trans
          (Finset.sum_congr rfl fun x _ => congrArg (X (ix2 p x) * ·) (congrFun (shapeCast_self WT hw) (ix2 x q))))
        ((broadcastTo_1b_ab_apply _ hbb p q).trans (congrFun (shapeCast_self b hb) (ix2 (0 : Fin 1) q))))
      Ideal.ofBits_zero_f32)
    ((broadcastTo_1b_ab_apply _ hmb p q).trans (congrFun (shapeCast_self mk hm) (ix2 (0 : Fin 1) q)))

/-- The same without a mask: at (p, q), max (Σₓ X p x · WT x q + b q) 0. -/
theorem denseOut_apply {M K N : ℕ} (prec : Option ContractPrecision)
    (X : FVec Ideal ⟨2, ![M, K]⟩ .f32) (WT : FVec Ideal ⟨2, ![K, N]⟩ .f32) (b : FVec Ideal ⟨2, ![1, N]⟩ .f32)
    (hw : (⟨2, ![K, N]⟩ : Shape).ShapeCasts ⟨2, ![K, N]⟩)
    (hb : (⟨2, ![1, N]⟩ : Shape).ShapeCasts ⟨2, ![1, N]⟩)
    (hbb : (⟨2, ![1, N]⟩ : Shape).Broadcasts ⟨2, ![M, N]⟩) (p : Fin M) (q : Fin N) :
    maximumf
          (addf (matmul (F := Ideal) (DotDims.plain M K N) prec X (shapeCast ⟨2, ![K, N]⟩ WT hw)
                  (constant (F := Ideal) ⟨2, ![M, N]⟩ .f32 0x00000000#32))
                (broadcastTo ⟨2, ![M, N]⟩ (shapeCast ⟨2, ![1, N]⟩ b hb) hbb))
          (broadcast ⟨2, ![M, N]⟩ (Scalar.ofBits (F := Ideal) .f32 0x00000000#32)) (ix2 p q)
      = max ((∑ x : Fin K, X (ix2 p x) * WT (ix2 x q)) + b (ix2 (0 : Fin 1) q)) 0 :=
  congrArg₂ max
    (congrArg₂ (· + ·)
      ((matmul_plain_apply prec X _ p q).trans
        (Finset.sum_congr rfl fun x _ => congrArg (X (ix2 p x) * ·) (congrFun (shapeCast_self WT hw) (ix2 x q))))
      ((broadcastTo_1b_ab_apply _ hbb p q).trans (congrFun (shapeCast_self b hb) (ix2 (0 : Fin 1) q))))
    Ideal.ofBits_zero_f32

/-- The sum of the squares of every entry of a tile, kept as a [1, 1] value. -/
theorem totalSq_apply {a b : ℕ} (Y : FVec Ideal ⟨2, ![a, b]⟩ .f32)
    (h1 : Shape.Reduces ⟨2, ![a, b]⟩ [1] ⟨1, ![a]⟩) (hφ : FKind.Formats .f32)
    (hacc : (0x00000000#32 : BitVec 32) = 0x00000000#32)
    (hc : (⟨1, ![a]⟩ : Shape).ShapeCasts ⟨2, ![a, 1]⟩)
    (h0 : Shape.Reduces ⟨2, ![a, 1]⟩ [0] ⟨1, ![1]⟩) (hφ' : FKind.Formats .f32)
    (hacc' : (0x00000000#32 : BitVec 32) = 0x00000000#32)
    (hc1 : (⟨1, ![1]⟩ : Shape).ShapeCasts ⟨2, ![1, 1]⟩) (u w : Fin 1) :
    shapeCast ⟨2, ![1, 1]⟩
        (multiReduction (F := Ideal) .add [0] ⟨1, ![1]⟩
          (shapeCast ⟨2, ![a, 1]⟩ (multiReduction (F := Ideal) .add [1] ⟨1, ![a]⟩ (mulf Y Y) 0x00000000#32 h1 hφ hacc) hc)
          0x00000000#32 h0 hφ' hacc') hc1 (ix2 u w)
      = ∑ k : Fin a, ∑ j : Fin b, Y (ix2 k j) * Y (ix2 k j) :=
  (shapeCast_a_1a_apply _ hc1 u w).trans
    ((colSum_apply _ h0 hφ' hacc' w).trans
      (Finset.sum_congr rfl fun k _ => rowSumCol_apply (mulf Y Y) h1 hφ hacc hc k w))

/-- A row accumulator plus, at each column q, the sum over the rows k of V k q times the sum of row k
    of U. -/
theorem sdAcc_apply {a b c : ℕ} (U : FVec Ideal ⟨2, ![a, c]⟩ .f32) (V : FVec Ideal ⟨2, ![a, b]⟩ .f32)
    (acc : FVec Ideal ⟨2, ![1, b]⟩ .f32)
    (h1 : Shape.Reduces ⟨2, ![a, c]⟩ [1] ⟨1, ![a]⟩) (hφ : FKind.Formats .f32)
    (hacc : (0x00000000#32 : BitVec 32) = 0x00000000#32)
    (hc : (⟨1, ![a]⟩ : Shape).ShapeCasts ⟨2, ![a, 1]⟩)
    (hb : (⟨2, ![a, 1]⟩ : Shape).Broadcasts ⟨2, ![a, b]⟩)
    (h0 : Shape.Reduces ⟨2, ![a, b]⟩ [0] ⟨1, ![b]⟩) (hφ' : FKind.Formats .f32)
    (hacc' : (0x00000000#32 : BitVec 32) = 0x00000000#32)
    (hc1 : (⟨1, ![b]⟩ : Shape).ShapeCasts ⟨2, ![1, b]⟩)
    (hs : (⟨2, ![1, b]⟩ : Shape).ShapeCasts ⟨2, ![1, b]⟩) (u : Fin 1) (q : Fin b) :
    shapeCast ⟨2, ![1, b]⟩
        (addf acc
          (shapeCast ⟨2, ![1, b]⟩
            (multiReduction (F := Ideal) .add [0] ⟨1, ![b]⟩
              (mulf V (broadcastTo ⟨2, ![a, b]⟩
                (shapeCast ⟨2, ![a, 1]⟩ (multiReduction (F := Ideal) .add [1] ⟨1, ![a]⟩ U 0x00000000#32 h1 hφ hacc) hc) hb))
              0x00000000#32 h0 hφ' hacc') hc1)) hs (ix2 u q)
      = acc (ix2 u q) + ∑ k : Fin a, V (ix2 k q) * ∑ x : Fin c, U (ix2 k x) :=
  (congrFun (shapeCast_self _ hs) (ix2 u q)).trans
    (congrArg (acc (ix2 u q) + ·)
      ((shapeCast_a_1a_apply _ hc1 u q).trans
        ((colSum_apply _ h0 hφ' hacc' q).trans
          (Finset.sum_congr rfl fun k _ => congrArg (V (ix2 k q) * ·)
            ((broadcastTo_a1_ab_apply _ hb k q).trans (rowSumCol_apply U h1 hφ hacc hc k 0))))))

end Cert.Tile
-- ==== Proof.Spec.lean ====
/-
  The two computations this certificate is about, as whole arrays over the extended reals, and what one tile of
  each computes.

  * One linear layer: entry (i, j) of the result is  Σₖ x(i,k) · w(k,j) + b(0,j).
  * One row-wise dot product: entry (i, 0) of the result is  Σₖ a(i,k) · b(i,k).

  A tile of the first is a block of rows of x against the whole of w and b: the product is taken after both
  operands have passed through a narrower float format, which over the extended reals changes nothing, into
  an accumulator of zeros, and the bias row is spread down the rows. A tile of the second multiplies two
  blocks of rows entry by entry, sums each row along its lanes and keeps the sums as a column. In both the
  entry at row p depends on row p of the operands only, which is what lets the tiles be laid side by side.
-/
import Idealize.ShloMosaic.Lib.ValueIdx
import Idealize.ShloMosaic.Lib.ValueLayout
import Idealize.ShloMosaic.Lib.Pipeline.Value
import Idealize.ShloMosaic.PureOps.Ideal.Laws
import proofs.«137505_j5927054869109_1_alg».proof.Proof.LibPlainProduct
import proofs.«137505_j5927054869109_1_alg».proof.Proof.LibTile

noncomputable section

namespace Cert.Score

open Idealize.ShloMosaic Idealize.ShloMosaic.ValueIdx

/-- One linear layer as an array: entry (i, j) is Σₖ x(i,k) · w(k,j) + b(0,j). -/
def lin {M K N : ℕ} (x : FVec Ideal ⟨2, ![M, K]⟩ .f32) (w : FVec Ideal ⟨2, ![K, N]⟩ .f32)
    (b : FVec Ideal ⟨2, ![1, N]⟩ .f32) : FVec Ideal ⟨2, ![M, N]⟩ .f32 :=
  fun i => (∑ k : Fin K, x (ix2 (i 0) k) * w (ix2 k (i 1))) + b (ix2 (0 : Fin 1) (i 1))

theorem lin_apply {M K N : ℕ} (x : FVec Ideal ⟨2, ![M, K]⟩ .f32) (w : FVec Ideal ⟨2, ![K, N]⟩ .f32)
    (b : FVec Ideal ⟨2, ![1, N]⟩ .f32) (p : Fin M) (q : Fin N) :
    lin x w b (ix2 p q) = (∑ k : Fin K, x (ix2 p k) * w (ix2 k q)) + b (ix2 (0 : Fin 1) q) := rfl

/-- The row-wise dot product of two arrays kept as a column: entry (i, 0) is Σₖ a(i,k) · b(i,k). -/
def rowDot {E D : ℕ} (a b : FVec Ideal ⟨2, ![E, D]⟩ .f32) : FVec Ideal ⟨2, ![E, 1]⟩ .f32 :=
  fun i => ∑ k : Fin D, a (ix2 (i 0) k) * b (ix2 (i 0) k)

theorem rowDot_apply {E D : ℕ} (a b : FVec Ideal ⟨2, ![E, D]⟩ .f32) (p : Fin E) (u : Fin 1) :
    rowDot a b (ix2 p u) = ∑ k : Fin D, a (ix2 p k) * b (ix2 p k) := rfl

/-- A tile of the linear layer: m rows of x, narrowed, times w, narrowed, into zeros, plus the bias row spread
    down the m rows, reads at (p, q) the sum over k of x(p,k) · w(k,q), plus b(0,q). -/
theorem linTile_apply {m K N : ℕ} (x : FVec Ideal ⟨2, ![m, K]⟩ .f32) (w : FVec Ideal ⟨2, ![K, N]⟩ .f32)
    (b : FVec Ideal ⟨2, ![1, N]⟩ .f32) (hn : FTy.bf16.bits < FTy.f32.bits)
    (hb : (⟨2, ![1, N]⟩ : Shape).ShapeCasts ⟨2, ![1, N]⟩)
    (hbb : (⟨2, ![1, N]⟩ : Shape).Broadcasts ⟨2, ![m, N]⟩) (p : Fin m) (q : Fin N) :
    addf (matmul (F := Ideal) (DotDims.plain m K N) none (truncf .bf16 x hn) (truncf .bf16 w hn)
            (constant (F := Ideal) ⟨2, ![m, N]⟩ .f32 0x00000000#32))
         (broadcastTo ⟨2, ![m, N]⟩ (shapeCast ⟨2, ![1, N]⟩ b hb) hbb) (ix2 p q)
      = (∑ k : Fin K, x (ix2 p k) * w (ix2 k q)) + b (ix2 (0 : Fin 1) q) :=
  congrArg₂ (· + ·)
    (Cert.PlainProduct.matmul_zero_apply none (truncf .bf16 x hn) (truncf .bf16 w hn) p q)
    ((broadcastTo_1b_ab_apply _ hbb p q).trans (congrFun (shapeCast_self b hb) (ix2 (0 : Fin 1) q)))

/-- A tile of the row-wise dot product: two blocks of m rows multiplied entry by entry, each row summed along
    its lanes, the sums kept as a column, reads at (p, 0) the sum over k of a(p,k) · b(p,k). -/
theorem dotTile_apply {m D : ℕ} (a b : FVec Ideal ⟨2, ![m, D]⟩ .f32)
    (hs : (⟨2, ![m, D]⟩ : Shape).ShapeCasts ⟨2, ![m, D]⟩)
    (h : Shape.Reduces ⟨2, ![m, D]⟩ [1] ⟨1, ![m]⟩) (hφ : FKind.Formats .f32)
    (hacc : (0x00000000#32 : BitVec 32) = 0x00000000#32)
    (hc : (⟨1, ![m]⟩ : Shape).ShapeCasts ⟨2, ![m, 1]⟩) (p : Fin m) (u : Fin 1) :
    shapeCast ⟨2, ![m, 1]⟩
        (multiReduction (F := Ideal) .add [1] ⟨1, ![m]⟩
          (mulf (shapeCast ⟨2, ![m, D]⟩ a hs) (shapeCast ⟨2, ![m, D]⟩ b hs)) 0x00000000#32 h hφ hacc) hc (ix2 p u)
      = ∑ k : Fin D, a (ix2 p k) * b (ix2 p k) := by
  rw [shapeCast_self a hs, shapeCast_self b hs]
  exact Cert.Tile.rowSumCol_apply (mulf a b) h hφ hacc hc p u

end Cert.Score

end
-- ==== Proof.Mid.lean ====
/-
  The host stretch both programs share, as three functions.

  * `wrapIdx a`: an index column in the host's convention, where a negative entry counts from the end of the
    200000 rows: entry e is a(e) + 200000 if a(e) < 0, else a(e), laid out as a column [600000, 1].
  * `segMean msgs dst`: the mean of the 600000 message rows over the rows of a 200000-row table they are sent
    to: the rows sent to node n are added up, and the sum is divided by the number of rows sent there, a node
    nobody sends to dividing by 1.
  * `endpoint tab src dst idx`: rows of the table `tab` are taken along the edges' sources, averaged over the
    edges' destinations, and the averaged table is read again at the rows `idx` names.

  Nothing in this certificate looks inside them: the kernel's program and the reference apply the same three to
  their own linear layers, so it is enough that the layers agree.
-/
import proofs.«137505_j5927054869109_1_alg».proof.Proof.Gen.KernelIdeal

noncomputable section

namespace Cert.Score

open Cert.KernelIdeal Cert.KernelIdeal.Facts₀ Cert.KernelIdeal.Facts
open Idealize.ShloMosaic

variable {F : FTy → Type} [FloatOps F]

/-- An index column in the host's convention: a negative entry counts from the end of the 200000 rows. -/
def wrapIdx (a : (⟨S600000, .i32⟩ : BufTy).Contents (Elt F)) : (⟨S600000x1, .i32⟩ : BufTy).Contents (Elt F) :=
  broadcastInDim S600000x1 ![0] bcast_S600000_S600000x1_0
    (select (cmpi .slt a (broadcastInDim S600000 ![] bcast_S_S600000 (constantI S_ 32 0#32)))
      (addi a (broadcastInDim S600000 ![] bcast_S_S600000 (constantI S_ 32 200000#32))) a)

/-- The mean of the message rows over the table rows they are sent to; a row nobody sends to divides by 1. -/
def segMean (msgs : (⟨S600000x128, .f32⟩ : BufTy).Contents (Elt F)) (dst : (⟨S600000, .i32⟩ : BufTy).Contents (Elt F)) :
    (⟨S200000x128, .f32⟩ : BufTy).Contents (Elt F) :=
  Host.divf
    (Host.scatterAdd scatter_S200000x128_S600000x1_S600000x128_1_0_0_1
      (broadcastInDim S200000x128 ![] bcast_S_S200000x128 (constant (F := F) S_ .f32 0x00000000#32))
      (broadcastInDim S600000x1 ![0] bcast_S600000_S600000x1_0 dst) msgs)
    (broadcastInDim S200000x128 ![0, 1] bcast_S200000x1_S200000x128_0_1
      (broadcastInDim S200000x1 ![0] bcast_S200000_S200000x1_0
        (maximumf
          (Host.scatterAdd scatter_S200000_S600000x1_S600000_n_0_0_1
            (broadcastInDim S200000 ![] bcast_S_S200000 (constant (F := F) S_ .f32 0x00000000#32))
            (broadcastInDim S600000x1 ![0] bcast_S600000_S600000x1_0 dst)
            (broadcastInDim S600000 ![] bcast_S_S600000 (constant (F := F) S_ .f32 0x3F800000#32)))
          (broadcastInDim S200000 ![] bcast_S_S200000 (constant (F := F) S_ .f32 0x3F800000#32)))))

/-- Rows of `tab` taken along the edges' sources, averaged over their destinations, read again at `idx`. -/
def endpoint (tab : (⟨S200000x128, .f32⟩ : BufTy).Contents (Elt F))
    (src dst idx : (⟨S600000, .i32⟩ : BufTy).Contents (Elt F)) : (⟨S600000x128, .f32⟩ : BufTy).Contents (Elt F) :=
  Host.gather gather_S200000x128_S600000x1_S600000x128_1_0_n_n_0_1_1128
    (segMean (Host.gather gather_S200000x128_S600000x1_S600000x128_1_0_n_n_0_1_1128 tab (wrapIdx src)) dst)
    (wrapIdx idx)

end Cert.Score

end
-- ==== Proof.Score.lean ====
/-
  The score of a batch of edges, as one function of the twelve arguments.

  Each node type has one linear layer over its features. The item layer's rows are taken along the reviewed-by
  edges and averaged over the users they point to, giving every user a vector; the user layer's rows are taken
  along the click edges and averaged over the items they point to, giving every item a vector. The score of the
  edge e of a batch (qs, qd) is the dot product of the vector of user qs(e) with the vector of item qd(e). The
  positive scores are the batch of click edges themselves, the negative scores the batch of sampled pairs.
-/
import proofs.«137505_j5927054869109_1_alg».proof.Proof.Spec
import proofs.«137505_j5927054869109_1_alg».proof.Proof.Mid

noncomputable section

namespace Cert.Score

open Cert.KernelIdeal Cert.KernelIdeal.Facts₀ Cert.KernelIdeal.Facts
open Idealize.ShloMosaic

/-- A bias vector laid out as a one-row array. -/
def biasRow (b : (⟨S128, .f32⟩ : BufTy).Contents (Elt Ideal)) : (⟨S1x128, .f32⟩ : BufTy).Contents (Elt Ideal) :=
  shapeCast S1x128 b shapeCasts_S128_S1x128

/-- The scores of the batch (qs, qd): the user vectors come from the item layer (xi, wr, br) along (rs, rd), the item
    vectors from the user layer (xu, wc, bc) along (cs, cd). -/
def score (xu xi : (⟨S200000x256, .f32⟩ : BufTy).Contents (Elt Ideal))
    (wc : (⟨S256x128, .f32⟩ : BufTy).Contents (Elt Ideal)) (bc : (⟨S128, .f32⟩ : BufTy).Contents (Elt Ideal))
    (wr : (⟨S256x128, .f32⟩ : BufTy).Contents (Elt Ideal)) (br : (⟨S128, .f32⟩ : BufTy).Contents (Elt Ideal))
    (cs cd rs rd qs qd : (⟨S600000, .i32⟩ : BufTy).Contents (Elt Ideal)) :
    (⟨S600000x1, .f32⟩ : BufTy).Contents (Elt Ideal) :=
  rowDot (endpoint (F := Ideal) (lin xi wr (biasRow br)) rs rd qs)
         (endpoint (F := Ideal) (lin xu wc (biasRow bc)) cs cd qd)

end Cert.Score

end
-- ==== Proof.LinValue0.lean ====
/-
  The first linear layer's region: what its output array holds when the region ends.

  The region walks 50 grid points; point t reads rows 4000·t … 4000·t + 3999 of the input table, the whole
  weight matrix and the whole bias row, and writes rows 4000·t … 4000·t + 3999 of the output. The body's value
  at (p, q) of its block is Σₖ x(p,k) · w(k,q) + b(0,q) over the rows it was given, so what point t writes
  back is exactly block t of the layer `Cert.Score.lin` of the three arrays as the region found them. The 50
  blocks tile the 200000 rows, hence the output array ends as that layer, whole.
-/
import proofs.«137505_j5927054869109_1_alg».proof.Proof.Gen.KernelIdeal.Frame
import proofs.«137505_j5927054869109_1_alg».proof.Proof.Spec

set_option maxRecDepth 16384

noncomputable section

namespace Cert.KernelIdeal.LinValue0

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The body's value at (p, q) of its block, from the three blocks it loaded. -/
theorem body_apply (x0 : Vec Ideal S4000x256 .f32) (x1 : Vec Ideal S256x128 .f32) (x2 : Vec Ideal S1x128 .f32)
    (p : Fin 4000) (q : Fin 128) :
    k0_pay1 (F := Ideal) x0 x1 x2 (ix2 p q)
      = (∑ k : Fin 256, x0 (ix2 p k) * x1 (ix2 k q)) + x2 (ix2 (0 : Fin 1) q) := by
  unfold k0_pay1
  exact Cert.Score.linTile_apply x0 x1 x2 Gen.bitsLt_bf16_f32 Gen.shapeCasts_S1x128_S1x128
    Gen.broadcasts_S1x128_S4000x128 p q

/-- The printed index maps over the grid: the table's and the output's blocks move down the rows together, one
    block a point; the weight matrix and the bias row stay at their one block. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 50 := lt_of_lt_of_eq t.isLt N_0

/-- WHAT POINT t WRITES BACK is block t of the layer of the arrays as the region finds them. -/
theorem flushed_eq (c : Dev nD) (t : Fin cfg0.N) :
    (dat0 V c).flushed 3 t = ((cfg0.win 3).blk t).view.read (Elt Ideal)
      (Cert.Score.lin (V c main_arg0) (V c main_arg2) (V c main_v0)) := by
  show (cfg0.win 3).cut (grid0.coords t) ((dat0 V c).after 3 t) = _
  rw [after0_3]
  unfold out0_3
  rw [View.canon_unit_zero origin]
  simp only [View.ld_unit_zero (S := S4000x256) origin, View.ld_unit_zero (S := S256x128) origin,
    View.ld_unit_zero (S := S1x128) origin]
  obtain ⟨e00, e01, e10, e11, e20, e21, e30, e31⟩ := index_facts t
  have ht := point_lt t
  funext j
  obtain ⟨p, q, rfl⟩ : ∃ (p : Fin 4000) (q : Fin 128), j = ix2 p q := ⟨j 0, j 1, eq_ix2 j⟩
  have hr : t.val * 4000 + p.val < 200000 := by have := p.isLt; omega
  show k0_pay1 (F := Ideal) (iblk0 V c 0 t) (iblk0 V c 1 t) (iblk0 V c 2 t) (ix2 p q)
      = Cert.Score.lin (V c main_arg0) (V c main_arg2) (V c main_v0) (((cfg0.win 3).blk t).view.emb (ix2 p q))
  -- the output entry's own place in the array: row 4000·t + p, column q
  have hi : ((cfg0.win 3).blk t).view.emb (ix2 p q) = ix2 (⟨t.val * 4000 + p.val, hr⟩ : Fin 200000) q := by
    funext a; apply Fin.ext
    match a with
    | ⟨0, _⟩ => show win0_3.index t (0 : Fin 2) * 4000 + 1 * p.val = t.val * 4000 + p.val; omega
    | ⟨1, _⟩ => show win0_3.index t (1 : Fin 2) * 128 + 1 * q.val = q.val; omega
  -- the table's block is rows 4000·t … of the table; the weight matrix and the bias row are read whole
  have h0 : ∀ k : Fin 256, iblk0 V c 0 t (ix2 p k) = V c main_arg0 (ix2 (⟨t.val * 4000 + p.val, hr⟩ : Fin 200000) k) := fun k => by
    show V c main_arg0 (((cfg0.win 0).blk t).view.emb (ix2 p k)) = _
    refine congrArg (V c main_arg0) (funext fun a => Fin.ext ?_)
    match a with
    | ⟨0, _⟩ => show win0_0.index t (0 : Fin 2) * 4000 + 1 * p.val = t.val * 4000 + p.val; omega
    | ⟨1, _⟩ => show win0_0.index t (1 : Fin 2) * 256 + 1 * k.val = k.val; omega
  have h1 : ∀ k : Fin 256, iblk0 V c 1 t (ix2 k q) = V c main_arg2 (ix2 k q) := fun k => by
    show V c main_arg2 (((cfg0.win 1).blk t).view.emb (ix2 k q)) = _
    refine congrArg (V c main_arg2) (funext fun a => Fin.ext ?_)
    match a with
    | ⟨0, _⟩ => show win0_1.index t (0 : Fin 2) * 256 + 1 * k.val = k.val; omega
    | ⟨1, _⟩ => show win0_1.index t (1 : Fin 2) * 128 + 1 * q.val = q.val; omega
  have h2 : iblk0 V c 2 t (ix2 (0 : Fin 1) q) = V c main_v0 (ix2 (0 : Fin 1) q) := by
    show V c main_v0 (((cfg0.win 2).blk t).view.emb (ix2 (0 : Fin 1) q)) = _
    refine congrArg (V c main_v0) (funext fun a => Fin.ext ?_)
    match a with
    | ⟨0, _⟩ => show win0_2.index t (0 : Fin 2) * 1 + 1 * 0 = 0; omega
    | ⟨1, _⟩ => show win0_2.index t (1 : Fin 2) * 128 + 1 * q.val = q.val; omega
  rw [hi, Cert.Score.lin_apply]
  refine (body_apply (iblk0 V c 0 t) (iblk0 V c 1 t) (iblk0 V c 2 t) p q).trans ?_
  rw [h2]
  exact congrArg (· + V c main_v0 (ix2 (0 : Fin 1) q))
    (Finset.sum_congr rfl fun k _ => by rw [h0 k, h1 k])

/-- An index of the output array is in point t's block iff each coordinate is in the block's range on its axis. -/
theorem mem_blk (t : Fin cfg0.N) (i : S200000x128.Idx) :
    i ∈ ((cfg0.win 3).blk t).view.set ↔ ∀ a : Fin 2, win0_3.index t a * S4000x128.size a ≤ (i a).val
      ∧ (i a).val < win0_3.index t a * S4000x128.size a + S4000x128.size a := by
  show i ∈ ((View.whole main_v1).slice (win0_3.rect t)).set ↔ _
  rw [View.set_slice_whole, Rect.mem_set_unit]
  exact Iff.rfl

/-- The 50 blocks tile the rows: row r lies in the block of point r / 4000. -/
theorem cover (i : S200000x128.Idx) :
    ∃ t : Fin cfg0.N, (cfg0.win 3).flush t = true ∧ i ∈ ((cfg0.win 3).blk t).view.set := by
  have hi0 : (i 0).val < 200000 := (i 0).isLt
  have hi1 : (i 1).val < 128 := (i 1).isLt
  have hq : (i 0).val / 4000 < grid0.N := by rw [N_0]; omega
  obtain ⟨-, -, -, -, -, -, e30, e31⟩ := index_facts ⟨(i 0).val / 4000, hq⟩
  refine ⟨⟨(i 0).val / 4000, hq⟩, flush0_3 _, ?_⟩
  rw [mem_blk]
  intro a
  match a with
  | ⟨0, _⟩ =>
    show win0_3.index ⟨(i 0).val / 4000, hq⟩ (0 : Fin 2) * 4000 ≤ (i 0).val
      ∧ (i 0).val < win0_3.index ⟨(i 0).val / 4000, hq⟩ (0 : Fin 2) * 4000 + 4000
    rw [e30]
    show (i 0).val / 4000 * 4000 ≤ (i 0).val ∧ (i 0).val < (i 0).val / 4000 * 4000 + 4000
    omega
  | ⟨1, _⟩ =>
    show win0_3.index ⟨(i 0).val / 4000, hq⟩ (1 : Fin 2) * 128 ≤ (i 1).val
      ∧ (i 1).val < win0_3.index ⟨(i 0).val / 4000, hq⟩ (1 : Fin 2) * 128 + 128
    omega

/-- THE OUTPUT ARRAY when the region ends: the layer of the three arrays as the region found them. -/
theorem final (c : Dev nD) :
    (dat0 V c).arrAt 3 cfg0.N = Cert.Score.lin (V c main_arg0) (V c main_arg2) (V c main_v0) :=
  (dat0 V c).arrAt_eq_of_cover 3 _ (fun t _ => flushed_eq V c t) cover

end Cert.KernelIdeal.LinValue0

end
-- ==== Proof.LinValue1.lean ====
/-
  The second linear layer's region: what its output array holds when the region ends.

  The region walks 50 grid points; point t reads rows 4000·t … 4000·t + 3999 of the input table, the whole
  weight matrix and the whole bias row, and writes rows 4000·t … 4000·t + 3999 of the output. The body's value
  at (p, q) of its block is Σₖ x(p,k) · w(k,q) + b(0,q) over the rows it was given, so what point t writes
  back is exactly block t of the layer `Cert.Score.lin` of the three arrays as the region found them. The 50
  blocks tile the 200000 rows, hence the output array ends as that layer, whole.
-/
import proofs.«137505_j5927054869109_1_alg».proof.Proof.Gen.KernelIdeal.Frame
import proofs.«137505_j5927054869109_1_alg».proof.Proof.Spec

set_option maxRecDepth 16384

noncomputable section

namespace Cert.KernelIdeal.LinValue1

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The body's value at (p, q) of its block, from the three blocks it loaded. -/
theorem body_apply (x0 : Vec Ideal S4000x256 .f32) (x1 : Vec Ideal S256x128 .f32) (x2 : Vec Ideal S1x128 .f32)
    (p : Fin 4000) (q : Fin 128) :
    k1_pay1 (F := Ideal) x0 x1 x2 (ix2 p q)
      = (∑ k : Fin 256, x0 (ix2 p k) * x1 (ix2 k q)) + x2 (ix2 (0 : Fin 1) q) := by
  unfold k1_pay1
  exact Cert.Score.linTile_apply x0 x1 x2 Gen.bitsLt_bf16_f32 Gen.shapeCasts_S1x128_S1x128
    Gen.broadcasts_S1x128_S4000x128 p q

/-- The printed index maps over the grid: the table's and the output's blocks move down the rows together, one
    block a point; the weight matrix and the bias row stay at their one block. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem point_lt (t : Fin cfg1.N) : t.val < 50 := lt_of_lt_of_eq t.isLt N_1

/-- WHAT POINT t WRITES BACK is block t of the layer of the arrays as the region finds them. -/
theorem flushed_eq (c : Dev nD) (t : Fin cfg1.N) :
    (dat1 V c).flushed 3 t = ((cfg1.win 3).blk t).view.read (Elt Ideal)
      (Cert.Score.lin (V c main_arg1) (V c main_arg4) (V c main_v2)) := by
  show (cfg1.win 3).cut (grid1.coords t) ((dat1 V c).after 3 t) = _
  rw [after1_3]
  unfold out1_3
  rw [View.canon_unit_zero origin]
  simp only [View.ld_unit_zero (S := S4000x256) origin, View.ld_unit_zero (S := S256x128) origin,
    View.ld_unit_zero (S := S1x128) origin]
  obtain ⟨e00, e01, e10, e11, e20, e21, e30, e31⟩ := index_facts t
  have ht := point_lt t
  funext j
  obtain ⟨p, q, rfl⟩ : ∃ (p : Fin 4000) (q : Fin 128), j = ix2 p q := ⟨j 0, j 1, eq_ix2 j⟩
  have hr : t.val * 4000 + p.val < 200000 := by have := p.isLt; omega
  show k1_pay1 (F := Ideal) (iblk1 V c 0 t) (iblk1 V c 1 t) (iblk1 V c 2 t) (ix2 p q)
      = Cert.Score.lin (V c main_arg1) (V c main_arg4) (V c main_v2) (((cfg1.win 3).blk t).view.emb (ix2 p q))
  -- the output entry's own place in the array: row 4000·t + p, column q
  have hi : ((cfg1.win 3).blk t).view.emb (ix2 p q) = ix2 (⟨t.val * 4000 + p.val, hr⟩ : Fin 200000) q := by
    funext a; apply Fin.ext
    match a with
    | ⟨0, _⟩ => show win1_3.index t (0 : Fin 2) * 4000 + 1 * p.val = t.val * 4000 + p.val; omega
    | ⟨1, _⟩ => show win1_3.index t (1 : Fin 2) * 128 + 1 * q.val = q.val; omega
  -- the table's block is rows 4000·t … of the table; the weight matrix and the bias row are read whole
  have h0 : ∀ k : Fin 256, iblk1 V c 0 t (ix2 p k) = V c main_arg1 (ix2 (⟨t.val * 4000 + p.val, hr⟩ : Fin 200000) k) := fun k => by
    show V c main_arg1 (((cfg1.win 0).blk t).view.emb (ix2 p k)) = _
    refine congrArg (V c main_arg1) (funext fun a => Fin.ext ?_)
    match a with
    | ⟨0, _⟩ => show win1_0.index t (0 : Fin 2) * 4000 + 1 * p.val = t.val * 4000 + p.val; omega
    | ⟨1, _⟩ => show win1_0.index t (1 : Fin 2) * 256 + 1 * k.val = k.val; omega
  have h1 : ∀ k : Fin 256, iblk1 V c 1 t (ix2 k q) = V c main_arg4 (ix2 k q) := fun k => by
    show V c main_arg4 (((cfg1.win 1).blk t).view.emb (ix2 k q)) = _
    refine congrArg (V c main_arg4) (funext fun a => Fin.ext ?_)
    match a with
    | ⟨0, _⟩ => show win1_1.index t (0 : Fin 2) * 256 + 1 * k.val = k.val; omega
    | ⟨1, _⟩ => show win1_1.index t (1 : Fin 2) * 128 + 1 * q.val = q.val; omega
  have h2 : iblk1 V c 2 t (ix2 (0 : Fin 1) q) = V c main_v2 (ix2 (0 : Fin 1) q) := by
    show V c main_v2 (((cfg1.win 2).blk t).view.emb (ix2 (0 : Fin 1) q)) = _
    refine congrArg (V c main_v2) (funext fun a => Fin.ext ?_)
    match a with
    | ⟨0, _⟩ => show win1_2.index t (0 : Fin 2) * 1 + 1 * 0 = 0; omega
    | ⟨1, _⟩ => show win1_2.index t (1 : Fin 2) * 128 + 1 * q.val = q.val; omega
  rw [hi, Cert.Score.lin_apply]
  refine (body_apply (iblk1 V c 0 t) (iblk1 V c 1 t) (iblk1 V c 2 t) p q).trans ?_
  rw [h2]
  exact congrArg (· + V c main_v2 (ix2 (0 : Fin 1) q))
    (Finset.sum_congr rfl fun k _ => by rw [h0 k, h1 k])

/-- An index of the output array is in point t's block iff each coordinate is in the block's range on its axis. -/
theorem mem_blk (t : Fin cfg1.N) (i : S200000x128.Idx) :
    i ∈ ((cfg1.win 3).blk t).view.set ↔ ∀ a : Fin 2, win1_3.index t a * S4000x128.size a ≤ (i a).val
      ∧ (i a).val < win1_3.index t a * S4000x128.size a + S4000x128.size a := by
  show i ∈ ((View.whole main_v3).slice (win1_3.rect t)).set ↔ _
  rw [View.set_slice_whole, Rect.mem_set_unit]
  exact Iff.rfl

/-- The 50 blocks tile the rows: row r lies in the block of point r / 4000. -/
theorem cover (i : S200000x128.Idx) :
    ∃ t : Fin cfg1.N, (cfg1.win 3).flush t = true ∧ i ∈ ((cfg1.win 3).blk t).view.set := by
  have hi0 : (i 0).val < 200000 := (i 0).isLt
  have hi1 : (i 1).val < 128 := (i 1).isLt
  have hq : (i 0).val / 4000 < grid1.N := by rw [N_1]; omega
  obtain ⟨-, -, -, -, -, -, e30, e31⟩ := index_facts ⟨(i 0).val / 4000, hq⟩
  refine ⟨⟨(i 0).val / 4000, hq⟩, flush1_3 _, ?_⟩
  rw [mem_blk]
  intro a
  match a with
  | ⟨0, _⟩ =>
    show win1_3.index ⟨(i 0).val / 4000, hq⟩ (0 : Fin 2) * 4000 ≤ (i 0).val
      ∧ (i 0).val < win1_3.index ⟨(i 0).val / 4000, hq⟩ (0 : Fin 2) * 4000 + 4000
    rw [e30]
    show (i 0).val / 4000 * 4000 ≤ (i 0).val ∧ (i 0).val < (i 0).val / 4000 * 4000 + 4000
    omega
  | ⟨1, _⟩ =>
    show win1_3.index ⟨(i 0).val / 4000, hq⟩ (1 : Fin 2) * 128 ≤ (i 1).val
      ∧ (i 1).val < win1_3.index ⟨(i 0).val / 4000, hq⟩ (1 : Fin 2) * 128 + 128
    omega

/-- THE OUTPUT ARRAY when the region ends: the layer of the three arrays as the region found them. -/
theorem final (c : Dev nD) :
    (dat1 V c).arrAt 3 cfg1.N = Cert.Score.lin (V c main_arg1) (V c main_arg4) (V c main_v2) :=
  (dat1 V c).arrAt_eq_of_cover 3 _ (fun t _ => flushed_eq V c t) cover

end Cert.KernelIdeal.LinValue1

end
-- ==== Proof.DotValue2.lean ====
/-
  The first scoring region: what its output array holds when the region ends.

  The region walks 100 grid points; point t reads rows 6000·t … 6000·t + 5999 of the two endpoint tables and
  writes rows 6000·t … 6000·t + 5999 of the one-column output. The body's value at (p, 0) of its block is
  Σₖ a(p,k) · b(p,k) over the rows it was given, so what point t writes back is exactly block t of the row-wise
  dot product `Cert.Score.rowDot` of the two tables as the region found them. The 100 blocks tile the 600000
  rows, hence the output array ends as that dot product, whole.
-/
import proofs.«137505_j5927054869109_1_alg».proof.Proof.Gen.KernelIdeal.Frame
import proofs.«137505_j5927054869109_1_alg».proof.Proof.Spec

set_option maxRecDepth 16384

noncomputable section

namespace Cert.KernelIdeal.DotValue2

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The body's value at (p, 0) of its block, from the two blocks it loaded. -/
theorem body_apply (x0 x1 : Vec Ideal S6000x128 .f32) (p : Fin 6000) (u : Fin 1) :
    k2_pay1 (F := Ideal) x0 x1 (ix2 p u) = ∑ k : Fin 128, x0 (ix2 p k) * x1 (ix2 p k) := by
  unfold k2_pay1
  exact Cert.Score.dotTile_apply x0 x1 Gen.shapeCasts_S6000x128_S6000x128 Gen.reduces_S6000x128_S6000 (.inl rfl) rfl
    Gen.shapeCasts_S6000_S6000x1 p u

/-- The printed index maps over the grid: the two tables' and the output's blocks move down the rows together,
    one block a point. -/
theorem index_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

theorem point_lt (t : Fin cfg2.N) : t.val < 100 := lt_of_lt_of_eq t.isLt N_2

/-- WHAT POINT t WRITES BACK is block t of the row-wise dot product of the tables as the region finds them. -/
theorem flushed_eq (c : Dev nD) (t : Fin cfg2.N) :
    (dat2 V c).flushed 2 t = ((cfg2.win 2).blk t).view.read (Elt Ideal)
      (Cert.Score.rowDot (V c main_v48) (V c main_v55)) := by
  show (cfg2.win 2).cut (grid2.coords t) ((dat2 V c).after 2 t) = _
  rw [after2_2]
  unfold out2_2
  rw [View.canon_unit_zero origin]
  simp only [View.ld_unit_zero (S := S6000x128) origin]
  obtain ⟨e00, e01, e10, e11, e20, e21⟩ := index_facts t
  have ht := point_lt t
  funext j
  obtain ⟨p, u, rfl⟩ : ∃ (p : Fin 6000) (u : Fin 1), j = ix2 p u := ⟨j 0, j 1, eq_ix2 j⟩
  have hr : t.val * 6000 + p.val < 600000 := by have := p.isLt; omega
  have hu : u.val = 0 := by omega
  show k2_pay1 (F := Ideal) (iblk2 V c 0 t) (iblk2 V c 1 t) (ix2 p u)
      = Cert.Score.rowDot (V c main_v48) (V c main_v55) (((cfg2.win 2).blk t).view.emb (ix2 p u))
  -- the output entry's own place in the array: row 6000·t + p of the one column
  have hi : ((cfg2.win 2).blk t).view.emb (ix2 p u) = ix2 (⟨t.val * 6000 + p.val, hr⟩ : Fin 600000) (0 : Fin 1) := by
    funext a; apply Fin.ext
    match a with
    | ⟨0, _⟩ => show win2_2.index t (0 : Fin 2) * 6000 + 1 * p.val = t.val * 6000 + p.val; omega
    | ⟨1, _⟩ => show win2_2.index t (1 : Fin 2) * 1 + 1 * u.val = 0; omega
  -- each table's block is rows 6000·t … of the table
  have h0 : ∀ k : Fin 128, iblk2 V c 0 t (ix2 p k) = V c main_v48 (ix2 (⟨t.val * 6000 + p.val, hr⟩ : Fin 600000) k) := fun k => by
    show V c main_v48 (((cfg2.win 0).blk t).view.emb (ix2 p k)) = _
    refine congrArg (V c main_v48) (funext fun a => Fin.ext ?_)
    match a with
    | ⟨0, _⟩ => show win2_0.index t (0 : Fin 2) * 6000 + 1 * p.val = t.val * 6000 + p.val; omega
    | ⟨1, _⟩ => show win2_0.index t (1 : Fin 2) * 128 + 1 * k.val = k.val; omega
  have h1 : ∀ k : Fin 128, iblk2 V c 1 t (ix2 p k) = V c main_v55 (ix2 (⟨t.val * 6000 + p.val, hr⟩ : Fin 600000) k) := fun k => by
    show V c main_v55 (((cfg2.win 1).blk t).view.emb (ix2 p k)) = _
    refine congrArg (V c main_v55) (funext fun a => Fin.ext ?_)
    match a with
    | ⟨0, _⟩ => show win2_1.index t (0 : Fin 2) * 6000 + 1 * p.val = t.val * 6000 + p.val; omega
    | ⟨1, _⟩ => show win2_1.index t (1 : Fin 2) * 128 + 1 * k.val = k.val; omega
  rw [hi, Cert.Score.rowDot_apply]
  refine (body_apply (iblk2 V c 0 t) (iblk2 V c 1 t) p u).trans ?_
  exact Finset.sum_congr rfl fun k _ => by rw [h0 k, h1 k]

/-- An index of the output array is in point t's block iff each coordinate is in the block's range on its axis. -/
theorem mem_blk (t : Fin cfg2.N) (i : S600000x1.Idx) :
    i ∈ ((cfg2.win 2).blk t).view.set ↔ ∀ a : Fin 2, win2_2.index t a * S6000x1.size a ≤ (i a).val
      ∧ (i a).val < win2_2.index t a * S6000x1.size a + S6000x1.size a := by
  show i ∈ ((View.whole main_v70).slice (win2_2.rect t)).set ↔ _
  rw [View.set_slice_whole, Rect.mem_set_unit]
  exact Iff.rfl

/-- The 100 blocks tile the rows: row r lies in the block of point r / 6000. -/
theorem cover (i : S600000x1.Idx) :
    ∃ t : Fin cfg2.N, (cfg2.win 2).flush t = true ∧ i ∈ ((cfg2.win 2).blk t).view.set := by
  have hi0 : (i 0).val < 600000 := (i 0).isLt
  have hi1 : (i 1).val < 1 := (i 1).isLt
  have hq : (i 0).val / 6000 < grid2.N := by rw [N_2]; omega
  obtain ⟨-, -, -, -, e20, e21⟩ := index_facts ⟨(i 0).val / 6000, hq⟩
  refine ⟨⟨(i 0).val / 6000, hq⟩, flush2_2 _, ?_⟩
  rw [mem_blk]
  intro a
  match a with
  | ⟨0, _⟩ =>
    show win2_2.index ⟨(i 0).val / 6000, hq⟩ (0 : Fin 2) * 6000 ≤ (i 0).val
      ∧ (i 0).val < win2_2.index ⟨(i 0).val / 6000, hq⟩ (0 : Fin 2) * 6000 + 6000
    rw [e20]
    show (i 0).val / 6000 * 6000 ≤ (i 0).val ∧ (i 0).val < (i 0).val / 6000 * 6000 + 6000
    omega
  | ⟨1, _⟩ =>
    show win2_2.index ⟨(i 0).val / 6000, hq⟩ (1 : Fin 2) * 1 ≤ (i 1).val
      ∧ (i 1).val < win2_2.index ⟨(i 0).val / 6000, hq⟩ (1 : Fin 2) * 1 + 1
    omega

/-- THE OUTPUT ARRAY when the region ends: the row-wise dot product of the two tables as the region found them. -/
theorem final (c : Dev nD) :
    (dat2 V c).arrAt 2 cfg2.N = Cert.Score.rowDot (V c main_v48) (V c main_v55) :=
  (dat2 V c).arrAt_eq_of_cover 2 _ (fun t _ => flushed_eq V c t) cover

end Cert.KernelIdeal.DotValue2

end
-- ==== Proof.DotValue3.lean ====
/-
  The second scoring region: what its output array holds when the region ends.

  The region walks 100 grid points; point t reads rows 6000·t … 6000·t + 5999 of the two endpoint tables and
  writes rows 6000·t … 6000·t + 5999 of the one-column output. The body's value at (p, 0) of its block is
  Σₖ a(p,k) · b(p,k) over the rows it was given, so what point t writes back is exactly block t of the row-wise
  dot product `Cert.Score.rowDot` of the two tables as the region found them. The 100 blocks tile the 600000
  rows, hence the output array ends as that dot product, whole.
-/
import proofs.«137505_j5927054869109_1_alg».proof.Proof.Gen.KernelIdeal.Frame
import proofs.«137505_j5927054869109_1_alg».proof.Proof.Spec

set_option maxRecDepth 16384

noncomputable section

namespace Cert.KernelIdeal.DotValue3

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The body's value at (p, 0) of its block, from the two blocks it loaded. -/
theorem body_apply (x0 x1 : Vec Ideal S6000x128 .f32) (p : Fin 6000) (u : Fin 1) :
    k3_pay1 (F := Ideal) x0 x1 (ix2 p u) = ∑ k : Fin 128, x0 (ix2 p k) * x1 (ix2 p k) := by
  unfold k3_pay1
  exact Cert.Score.dotTile_apply x0 x1 Gen.shapeCasts_S6000x128_S6000x128 Gen.reduces_S6000x128_S6000 (.inl rfl) rfl
    Gen.shapeCasts_S6000_S6000x1 p u

/-- The printed index maps over the grid: the two tables' and the output's blocks move down the rows together,
    one block a point. -/
theorem index_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

theorem point_lt (t : Fin cfg3.N) : t.val < 100 := lt_of_lt_of_eq t.isLt N_3

/-- WHAT POINT t WRITES BACK is block t of the row-wise dot product of the tables as the region finds them. -/
theorem flushed_eq (c : Dev nD) (t : Fin cfg3.N) :
    (dat3 V c).flushed 2 t = ((cfg3.win 2).blk t).view.read (Elt Ideal)
      (Cert.Score.rowDot (V c main_v62) (V c main_v69)) := by
  show (cfg3.win 2).cut (grid3.coords t) ((dat3 V c).after 2 t) = _
  rw [after3_2]
  unfold out3_2
  rw [View.canon_unit_zero origin]
  simp only [View.ld_unit_zero (S := S6000x128) origin]
  obtain ⟨e00, e01, e10, e11, e20, e21⟩ := index_facts t
  have ht := point_lt t
  funext j
  obtain ⟨p, u, rfl⟩ : ∃ (p : Fin 6000) (u : Fin 1), j = ix2 p u := ⟨j 0, j 1, eq_ix2 j⟩
  have hr : t.val * 6000 + p.val < 600000 := by have := p.isLt; omega
  have hu : u.val = 0 := by omega
  show k3_pay1 (F := Ideal) (iblk3 V c 0 t) (iblk3 V c 1 t) (ix2 p u)
      = Cert.Score.rowDot (V c main_v62) (V c main_v69) (((cfg3.win 2).blk t).view.emb (ix2 p u))
  -- the output entry's own place in the array: row 6000·t + p of the one column
  have hi : ((cfg3.win 2).blk t).view.emb (ix2 p u) = ix2 (⟨t.val * 6000 + p.val, hr⟩ : Fin 600000) (0 : Fin 1) := by
    funext a; apply Fin.ext
    match a with
    | ⟨0, _⟩ => show win3_2.index t (0 : Fin 2) * 6000 + 1 * p.val = t.val * 6000 + p.val; omega
    | ⟨1, _⟩ => show win3_2.index t (1 : Fin 2) * 1 + 1 * u.val = 0; omega
  -- each table's block is rows 6000·t … of the table
  have h0 : ∀ k : Fin 128, iblk3 V c 0 t (ix2 p k) = V c main_v62 (ix2 (⟨t.val * 6000 + p.val, hr⟩ : Fin 600000) k) := fun k => by
    show V c main_v62 (((cfg3.win 0).blk t).view.emb (ix2 p k)) = _
    refine congrArg (V c main_v62) (funext fun a => Fin.ext ?_)
    match a with
    | ⟨0, _⟩ => show win3_0.index t (0 : Fin 2) * 6000 + 1 * p.val = t.val * 6000 + p.val; omega
    | ⟨1, _⟩ => show win3_0.index t (1 : Fin 2) * 128 + 1 * k.val = k.val; omega
  have h1 : ∀ k : Fin 128, iblk3 V c 1 t (ix2 p k) = V c main_v69 (ix2 (⟨t.val * 6000 + p.val, hr⟩ : Fin 600000) k) := fun k => by
    show V c main_v69 (((cfg3.win 1).blk t).view.emb (ix2 p k)) = _
    refine congrArg (V c main_v69) (funext fun a => Fin.ext ?_)
    match a with
    | ⟨0, _⟩ => show win3_1.index t (0 : Fin 2) * 6000 + 1 * p.val = t.val * 6000 + p.val; omega
    | ⟨1, _⟩ => show win3_1.index t (1 : Fin 2) * 128 + 1 * k.val = k.val; omega
  rw [hi, Cert.Score.rowDot_apply]
  refine (body_apply (iblk3 V c 0 t) (iblk3 V c 1 t) p u).trans ?_
  exact Finset.sum_congr rfl fun k _ => by rw [h0 k, h1 k]

/-- An index of the output array is in point t's block iff each coordinate is in the block's range on its axis. -/
theorem mem_blk (t : Fin cfg3.N) (i : S600000x1.Idx) :
    i ∈ ((cfg3.win 2).blk t).view.set ↔ ∀ a : Fin 2, win3_2.index t a * S6000x1.size a ≤ (i a).val
      ∧ (i a).val < win3_2.index t a * S6000x1.size a + S6000x1.size a := by
  show i ∈ ((View.whole main_v71).slice (win3_2.rect t)).set ↔ _
  rw [View.set_slice_whole, Rect.mem_set_unit]
  exact Iff.rfl

/-- The 100 blocks tile the rows: row r lies in the block of point r / 6000. -/
theorem cover (i : S600000x1.Idx) :
    ∃ t : Fin cfg3.N, (cfg3.win 2).flush t = true ∧ i ∈ ((cfg3.win 2).blk t).view.set := by
  have hi0 : (i 0).val < 600000 := (i 0).isLt
  have hi1 : (i 1).val < 1 := (i 1).isLt
  have hq : (i 0).val / 6000 < grid3.N := by rw [N_3]; omega
  obtain ⟨-, -, -, -, e20, e21⟩ := index_facts ⟨(i 0).val / 6000, hq⟩
  refine ⟨⟨(i 0).val / 6000, hq⟩, flush3_2 _, ?_⟩
  rw [mem_blk]
  intro a
  match a with
  | ⟨0, _⟩ =>
    show win3_2.index ⟨(i 0).val / 6000, hq⟩ (0 : Fin 2) * 6000 ≤ (i 0).val
      ∧ (i 0).val < win3_2.index ⟨(i 0).val / 6000, hq⟩ (0 : Fin 2) * 6000 + 6000
    rw [e20]
    show (i 0).val / 6000 * 6000 ≤ (i 0).val ∧ (i 0).val < (i 0).val / 6000 * 6000 + 6000
    omega
  | ⟨1, _⟩ =>
    show win3_2.index ⟨(i 0).val / 6000, hq⟩ (1 : Fin 2) * 1 ≤ (i 1).val
      ∧ (i 1).val < win3_2.index ⟨(i 0).val / 6000, hq⟩ (1 : Fin 2) * 1 + 1
    omega

/-- THE OUTPUT ARRAY when the region ends: the row-wise dot product of the two tables as the region found them. -/
theorem final (c : Dev nD) :
    (dat3 V c).arrAt 2 cfg3.N = Cert.Score.rowDot (V c main_v62) (V c main_v69) :=
  (dat3 V c).arrAt_eq_of_cover 2 _ (fun t _ => flushed_eq V c t) cover

end Cert.KernelIdeal.DotValue3

end
-- ==== Proof.KFold.lean ====
/-
  The kernel program's two results as the score function of its arguments.

  @main is four regions among three stretches of host operations, and the contents of every buffer at each
  boundary are known: a stretch applies its operations, a region leaves its output array at what its grid points
  wrote back and everything else as it was. Reading the two result buffers back through the boundaries:

  * each result is the row-wise dot product of two endpoint tables as its scoring region found them;
  * each endpoint table is, after the long stretch, `Cert.Score.endpoint` of a layer's output and of index arrays;
  * each layer's output is `Cert.Score.lin` of a feature table, a weight matrix and a bias row as its region found
    them, the bias row being the bias vector laid out as one row by the one-operation stretch before the region;
  * every other buffer these read — the feature tables, the weights, the biases, the index arrays — is written by
    nothing on the way, so holds what the launch memory held.
-/
import proofs.«137505_j5927054869109_1_alg».proof.Proof.Gen.KernelIdeal.Frame
import proofs.«137505_j5927054869109_1_alg».proof.Proof.Score
import proofs.«137505_j5927054869109_1_alg».proof.Proof.LinValue0
import proofs.«137505_j5927054869109_1_alg».proof.Proof.LinValue1
import proofs.«137505_j5927054869109_1_alg».proof.Proof.DotValue2
import proofs.«137505_j5927054869109_1_alg».proof.Proof.DotValue3
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.ShloMosaic.StableHlo

variable (m : (ℓ : Loc nD τ sig) → Buf (Elt Ideal) ℓ) (ρ : Dev nD → PrngReg)

/-! ## Buffers nothing writes, boundary by boundary up to the long stretch -/

/-- Before the first region: only the first bias row has been written. -/
theorem W1_keep (b : Ref sig .tc) (hv0 : b ≠ main_v0) (c : Dev nD) :
    W1 m ρ c (Proc.devRef .tc b) = m ((c : Thread nD τ).loc b) :=
  StableHlo.after_of_forall_not_mem (b := Proc.devRef .tc b) _ _ (List.forall_iff_forall_mem.mp (by
      simp only [hostOps0, List.Forall, StableHlo.reshape_writes, Finset.mem_singleton]
      exact StableHlo.devRef_ne_of_ne hv0))

/-- After the first region: its arrays apart, as before it. -/
theorem W2_keep (b : Ref sig .tc) (h0 : ∀ w, Pipeline.arrRef spec0 w ≠ b) (hv0 : b ≠ main_v0) (c : Dev nD) :
    W2 m ρ c (Proc.devRef .tc b) = m ((c : Thread nD τ).loc b) :=
  (W2_of_ne m ρ c b h0).trans (W1_keep m ρ b hv0 c)

/-- Before the second region: only the second bias row has been written since. -/
theorem W3_keep (b : Ref sig .tc) (hv2 : b ≠ main_v2) (h0 : ∀ w, Pipeline.arrRef spec0 w ≠ b) (hv0 : b ≠ main_v0)
    (c : Dev nD) : W3 m ρ c (Proc.devRef .tc b) = m ((c : Thread nD τ).loc b) :=
  (StableHlo.after_of_forall_not_mem (b := Proc.devRef .tc b) _ _ (List.forall_iff_forall_mem.mp (by
      simp only [hostOps1, List.Forall, StableHlo.reshape_writes, Finset.mem_singleton]
      exact StableHlo.devRef_ne_of_ne hv2))).trans (W2_keep m ρ b h0 hv0 c)

/-- After the second region: its arrays apart, as before it. -/
theorem W4_keep (b : Ref sig .tc) (h1 : ∀ w, Pipeline.arrRef spec1 w ≠ b) (hv2 : b ≠ main_v2)
    (h0 : ∀ w, Pipeline.arrRef spec0 w ≠ b) (hv0 : b ≠ main_v0) (c : Dev nD) :
    W4 m ρ c (Proc.devRef .tc b) = m ((c : Thread nD τ).loc b) :=
  (W4_of_ne m ρ c b h1).trans (W3_keep m ρ b hv2 h0 hv0 c)

/-! ## The two bias rows -/

theorem bias_user (c : Dev nD) : V1 m ρ c main_v0 = Cert.Score.biasRow (m ((c : Thread nD τ).loc main_arg3)) := by
  show StableHlo.after hostOps0 (W0 m ρ c) (Proc.devRef .tc main_v0) = _
  after_results
  rfl

theorem bias_item (c : Dev nD) : V3 m ρ c main_v2 = Cert.Score.biasRow (m ((c : Thread nD τ).loc main_arg5)) := by
  show StableHlo.after hostOps1 (W2 m ρ c) (Proc.devRef .tc main_v2) = _
  after_results
  rw [W2_keep m ρ main_arg5 (by decide) (by decide) c]
  rfl

/-! ## The two layers' outputs as the long stretch finds them -/

/-- The user layer's output, written by the first region and touched by nothing since. -/
theorem layer_user (c : Dev nD) :
    W4 m ρ c (Proc.devRef .tc main_v1)
      = Cert.Score.lin (m ((c : Thread nD τ).loc main_arg0)) (m ((c : Thread nD τ).loc main_arg2)) (Cert.Score.biasRow (m ((c : Thread nD τ).loc main_arg3))) := by
  have hb : ∀ b : Ref sig .tc, b ≠ main_v2 → StableHlo.after hostOps1 (W2 m ρ c) (Proc.devRef .tc b) = W2 m ρ c (Proc.devRef .tc b) :=
    fun b hv2 => StableHlo.after_of_forall_not_mem (b := Proc.devRef .tc b) _ _ (List.forall_iff_forall_mem.mp (by
      simp only [hostOps1, List.Forall, StableHlo.reshape_writes, Finset.mem_singleton]
      exact StableHlo.devRef_ne_of_ne hv2))
  refine (W4_of_ne m ρ c main_v1 (by decide)).trans ((hb main_v1 (by decide)).trans ?_)
  refine (W2_arr m ρ c 3).trans ((Cert.KernelIdeal.LinValue0.final (V1 m ρ) c).trans ?_)
  rw [bias_user m ρ c]
  show Cert.Score.lin (W1 m ρ c (Proc.devRef .tc main_arg0)) (W1 m ρ c (Proc.devRef .tc main_arg2)) _ = _
  rw [W1_keep m ρ main_arg0 (by decide) c, W1_keep m ρ main_arg2 (by decide) c]

/-- The item layer's output, written by the second region. -/
theorem layer_item (c : Dev nD) :
    W4 m ρ c (Proc.devRef .tc main_v3)
      = Cert.Score.lin (m ((c : Thread nD τ).loc main_arg1)) (m ((c : Thread nD τ).loc main_arg4)) (Cert.Score.biasRow (m ((c : Thread nD τ).loc main_arg5))) := by
  refine (W4_arr m ρ c 3).trans ((Cert.KernelIdeal.LinValue1.final (V3 m ρ) c).trans ?_)
  rw [bias_item m ρ c]
  show Cert.Score.lin (W3 m ρ c (Proc.devRef .tc main_arg1)) (W3 m ρ c (Proc.devRef .tc main_arg4)) _ = _
  rw [W3_keep m ρ main_arg1 (by decide) (by decide) (by decide) c,
    W3_keep m ρ main_arg4 (by decide) (by decide) (by decide) c]

/-! ## The four endpoint tables after the long stretch -/

set_option maxHeartbeats 4000000 in
theorem user_vec_pos (c : Dev nD) :
    W5 m ρ c (Proc.devRef .tc main_v48)
      = Cert.Score.endpoint (F := Ideal) (W4 m ρ c (Proc.devRef .tc main_v3)) (W4 m ρ c (Proc.devRef .tc main_arg8))
          (W4 m ρ c (Proc.devRef .tc main_arg9)) (W4 m ρ c (Proc.devRef .tc main_arg6)) := by
  show StableHlo.after hostOps2 (W4 m ρ c) (Proc.devRef .tc main_v48) = _
  after_results_simp
  rfl

set_option maxHeartbeats 4000000 in
theorem item_vec_pos (c : Dev nD) :
    W5 m ρ c (Proc.devRef .tc main_v55)
      = Cert.Score.endpoint (F := Ideal) (W4 m ρ c (Proc.devRef .tc main_v1)) (W4 m ρ c (Proc.devRef .tc main_arg6))
          (W4 m ρ c (Proc.devRef .tc main_arg7)) (W4 m ρ c (Proc.devRef .tc main_arg7)) := by
  show StableHlo.after hostOps2 (W4 m ρ c) (Proc.devRef .tc main_v55) = _
  after_results_simp
  rfl

set_option maxHeartbeats 4000000 in
theorem user_vec_neg (c : Dev nD) :
    W5 m ρ c (Proc.devRef .tc main_v62)
      = Cert.Score.endpoint (F := Ideal) (W4 m ρ c (Proc.devRef .tc main_v3)) (W4 m ρ c (Proc.devRef .tc main_arg8))
          (W4 m ρ c (Proc.devRef .tc main_arg9)) (W4 m ρ c (Proc.devRef .tc main_arg10)) := by
  show StableHlo.after hostOps2 (W4 m ρ c) (Proc.devRef .tc main_v62) = _
  after_results_simp
  rfl

set_option maxHeartbeats 4000000 in
theorem item_vec_neg (c : Dev nD) :
    W5 m ρ c (Proc.devRef .tc main_v69)
      = Cert.Score.endpoint (F := Ideal) (W4 m ρ c (Proc.devRef .tc main_v1)) (W4 m ρ c (Proc.devRef .tc main_arg6))
          (W4 m ρ c (Proc.devRef .tc main_arg7)) (W4 m ρ c (Proc.devRef .tc main_arg11)) := by
  show StableHlo.after hostOps2 (W4 m ρ c) (Proc.devRef .tc main_v69) = _
  after_results_simp
  rfl

/-! ## The two results -/

/-- The kernel program's first result is the score of the click edges themselves. -/
theorem res_pos (c : Dev nD) :
    V7 m ρ c main_v70
      = Cert.Score.score (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg6)) (m ((c : Thread nD τ).loc main_arg7)) := by
  refine (W7_of_ne m ρ c main_v70 (by decide)).trans ((W6_arr m ρ c 2).trans
    ((Cert.KernelIdeal.DotValue2.final (V5 m ρ) c).trans ?_))
  show Cert.Score.rowDot (W5 m ρ c (Proc.devRef .tc main_v48)) (W5 m ρ c (Proc.devRef .tc main_v55)) = _
  rw [user_vec_pos m ρ c, item_vec_pos m ρ c, layer_user m ρ c, layer_item m ρ c,
    W4_keep m ρ main_arg6 (by decide) (by decide) (by decide) (by decide) c,
    W4_keep m ρ main_arg7 (by decide) (by decide) (by decide) (by decide) c,
    W4_keep m ρ main_arg8 (by decide) (by decide) (by decide) (by decide) c,
    W4_keep m ρ main_arg9 (by decide) (by decide) (by decide) (by decide) c]
  rfl

/-- The kernel program's second result is the score of the sampled pairs. -/
theorem res_neg (c : Dev nD) :
    V7 m ρ c main_v71
      = Cert.Score.score (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10)) (m ((c : Thread nD τ).loc main_arg11)) := by
  refine (W7_arr m ρ c 2).trans ((Cert.KernelIdeal.DotValue3.final (V6 m ρ) c).trans ?_)
  show Cert.Score.rowDot (W6 m ρ c (Proc.devRef .tc main_v62)) (W6 m ρ c (Proc.devRef .tc main_v69)) = _
  rw [W6_of_ne m ρ c main_v62 (by decide), W6_of_ne m ρ c main_v69 (by decide)]
  show Cert.Score.rowDot (W5 m ρ c (Proc.devRef .tc main_v62)) (W5 m ρ c (Proc.devRef .tc main_v69)) = _
  rw [user_vec_neg m ρ c, item_vec_neg m ρ c, layer_user m ρ c, layer_item m ρ c,
    W4_keep m ρ main_arg6 (by decide) (by decide) (by decide) (by decide) c,
    W4_keep m ρ main_arg7 (by decide) (by decide) (by decide) (by decide) c,
    W4_keep m ρ main_arg8 (by decide) (by decide) (by decide) (by decide) c,
    W4_keep m ρ main_arg9 (by decide) (by decide) (by decide) (by decide) c,
    W4_keep m ρ main_arg10 (by decide) (by decide) (by decide) (by decide) c,
    W4_keep m ρ main_arg11 (by decide) (by decide) (by decide) (by decide) c]
  rfl

end Cert.KernelIdeal.Fold

end
-- ==== Proof.RefValue.lean ====
/-
  The reference program's two results as the score function of its arguments.

  The reference computes each linear layer as a matrix product plus the bias spread over the rows, applies the
  shared host stretch to it, and ends with an entry-by-entry product of the two endpoint tables summed along
  each row from 0 and laid out as a column. Over the extended reals the matrix product at (p, q) is the plain
  sum Σₖ x(p,k) · w(k,q), the spread bias at (p, q) is b(q), and 0 + s = s, so its layers are `Cert.Score.lin`
  with the bias as a row, and its last three stages are `Cert.Score.rowDot`. The stretch in between is, term for
  term, `Cert.Score.endpoint` of the layer.
-/
import proofs.«137505_j5927054869109_1_alg».proof.Proof.Gen.ReferenceIdeal.Read
import proofs.«137505_j5927054869109_1_alg».proof.Proof.Score
import Idealize.ShloMosaic.Lib.IdealHost

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx

/-! ## The two linear layers -/

/-- A matrix product plus the bias spread over the rows is the layer with the bias as a row. -/
theorem layer_eq (x : FVec Ideal S200000x256 .f32) (w : FVec Ideal S256x128 .f32) (b : FVec Ideal S128 .f32) :
    addf (Host.dotGeneral (F := Ideal) dot_S200000x256_S256x128_S200000x128_1_0_0_1_n_n none x w)
        (broadcastInDim S200000x128 ![0, 1] bcast_S1x128_S200000x128_0_1 (broadcastInDim S1x128 ![1] bcast_S128_S1x128_1 b))
      = Cert.Score.lin x w (Cert.Score.biasRow b) := by
  funext i
  obtain ⟨p, q, rfl⟩ : ∃ (p : Fin 200000) (q : Fin 128), i = ix2 p q := ⟨i 0, i 1, eq_ix2 i⟩
  rw [Cert.Score.lin_apply]
  refine congrArg₂ (· + ·) (Cert.PlainProduct.dotGeneral_apply none x w p q) ?_
  unfold Cert.Score.biasRow
  rw [shapeCast_a_1a_apply]
  refine (broadcastInDim_apply _ bcast_S1x128_S200000x128_0_1 _ (ix2 p q) (ix2 (0 : Fin 1) q) (fun a => ?_)).trans
    (broadcastInDim_apply _ bcast_S128_S1x128_1 b (ix2 (0 : Fin 1) q) (ix1 q) (fun a => ?_))
  · match a with
    | ⟨0, _⟩ => rfl
    | ⟨1, _⟩ => rfl
  · match a with
    | ⟨0, _⟩ => rfl

theorem layer_user (x0 : (⟨S200000x256, .f32⟩ : BufTy).Contents (Elt Ideal)) (x2 : (⟨S256x128, .f32⟩ : BufTy).Contents (Elt Ideal)) (x3 : (⟨S128, .f32⟩ : BufTy).Contents (Elt Ideal)) :
    val_main_v3 (F := Ideal) x0 x2 x3 = Cert.Score.lin x0 x2 (Cert.Score.biasRow x3) := layer_eq x0 x2 x3

theorem layer_item (x1 : (⟨S200000x256, .f32⟩ : BufTy).Contents (Elt Ideal)) (x4 : (⟨S256x128, .f32⟩ : BufTy).Contents (Elt Ideal)) (x5 : (⟨S128, .f32⟩ : BufTy).Contents (Elt Ideal)) :
    val_main_v7 (F := Ideal) x1 x4 x5 = Cert.Score.lin x1 x4 (Cert.Score.biasRow x5) := layer_eq x1 x4 x5

/-! ## The shared stretch -/

theorem user_vec_pos (x1 : (⟨S200000x256, .f32⟩ : BufTy).Contents (Elt Ideal)) (x4 : (⟨S256x128, .f32⟩ : BufTy).Contents (Elt Ideal)) (x5 : (⟨S128, .f32⟩ : BufTy).Contents (Elt Ideal))
    (x6 x8 x9 : (⟨S600000, .i32⟩ : BufTy).Contents (Elt Ideal)) :
    val_main_v52 (F := Ideal) x1 x4 x5 x6 x8 x9
      = Cert.Score.endpoint (F := Ideal) (val_main_v7 (F := Ideal) x1 x4 x5) x8 x9 x6 := rfl

theorem item_vec_pos (x0 : (⟨S200000x256, .f32⟩ : BufTy).Contents (Elt Ideal)) (x2 : (⟨S256x128, .f32⟩ : BufTy).Contents (Elt Ideal)) (x3 : (⟨S128, .f32⟩ : BufTy).Contents (Elt Ideal))
    (x6 x7 : (⟨S600000, .i32⟩ : BufTy).Contents (Elt Ideal)) :
    val_main_v59 (F := Ideal) x0 x2 x3 x6 x7
      = Cert.Score.endpoint (F := Ideal) (val_main_v3 (F := Ideal) x0 x2 x3) x6 x7 x7 := rfl

theorem user_vec_neg (x1 : (⟨S200000x256, .f32⟩ : BufTy).Contents (Elt Ideal)) (x4 : (⟨S256x128, .f32⟩ : BufTy).Contents (Elt Ideal)) (x5 : (⟨S128, .f32⟩ : BufTy).Contents (Elt Ideal))
    (x8 x9 x10 : (⟨S600000, .i32⟩ : BufTy).Contents (Elt Ideal)) :
    val_main_v69 (F := Ideal) x1 x4 x5 x8 x9 x10
      = Cert.Score.endpoint (F := Ideal) (val_main_v7 (F := Ideal) x1 x4 x5) x8 x9 x10 := rfl

theorem item_vec_neg (x0 : (⟨S200000x256, .f32⟩ : BufTy).Contents (Elt Ideal)) (x2 : (⟨S256x128, .f32⟩ : BufTy).Contents (Elt Ideal)) (x3 : (⟨S128, .f32⟩ : BufTy).Contents (Elt Ideal))
    (x6 x7 x11 : (⟨S600000, .i32⟩ : BufTy).Contents (Elt Ideal)) :
    val_main_v76 (F := Ideal) x0 x2 x3 x6 x7 x11
      = Cert.Score.endpoint (F := Ideal) (val_main_v3 (F := Ideal) x0 x2 x3) x6 x7 x11 := rfl

/-! ## The last three stages -/

/-- Two tables multiplied entry by entry, each row summed from 0, the sums laid out as a column. -/
theorem tail_eq (a b : FVec Ideal S600000x128 .f32) :
    broadcastInDim S600000x1 ![0] bcast_S600000_S600000x1_0
        (Host.reduceAdd (F := Ideal) (mulf a b) (constant (F := Ideal) S_ .f32 0x00000000#32) reducesTo_S600000x128_S600000_d1 h_S_)
      = Cert.Score.rowDot a b := by
  funext i
  obtain ⟨p, u, rfl⟩ : ∃ (p : Fin 600000) (u : Fin 1), i = ix2 p u := ⟨i 0, i 1, eq_ix2 i⟩
  rw [Cert.Score.rowDot_apply]
  refine (broadcastInDim_apply _ bcast_S600000_S600000x1_0 _ (ix2 p u) (ix1 p) (fun a => ?_)).trans ?_
  · match a with
    | ⟨0, _⟩ => rfl
  rw [hostReduceAdd_apply, Ideal.hostReduceAdd_single reducesTo_S600000x128_S600000_d1 (by decide)]
  have h0 : (constant (F := Ideal) S_ .f32 0x00000000#32) (Shape.Idx.first h_S_) = 0 := Ideal.ofBits_zero_f32
  rw [h0, zero_add]
  refine Finset.sum_congr rfl fun k _ => ?_
  show (mulf (F := Ideal) a b) _ = (mulf (F := Ideal) a b) (ix2 p k)
  refine congrArg (mulf (F := Ideal) a b) (funext fun ax => Fin.ext ?_)
  match ax with
  | ⟨0, _⟩ => rfl
  | ⟨1, _⟩ => rfl

theorem tail_pos (x0 x1 : (⟨S200000x256, .f32⟩ : BufTy).Contents (Elt Ideal)) (x2 : (⟨S256x128, .f32⟩ : BufTy).Contents (Elt Ideal)) (x3 : (⟨S128, .f32⟩ : BufTy).Contents (Elt Ideal))
    (x4 : (⟨S256x128, .f32⟩ : BufTy).Contents (Elt Ideal)) (x5 : (⟨S128, .f32⟩ : BufTy).Contents (Elt Ideal)) (x6 x7 x8 x9 : (⟨S600000, .i32⟩ : BufTy).Contents (Elt Ideal)) :
    val_main_v62 (F := Ideal) x0 x1 x2 x3 x4 x5 x6 x7 x8 x9
      = Cert.Score.rowDot (val_main_v52 (F := Ideal) x1 x4 x5 x6 x8 x9) (val_main_v59 (F := Ideal) x0 x2 x3 x6 x7) :=
  tail_eq _ _

theorem tail_neg (x0 x1 : (⟨S200000x256, .f32⟩ : BufTy).Contents (Elt Ideal)) (x2 : (⟨S256x128, .f32⟩ : BufTy).Contents (Elt Ideal)) (x3 : (⟨S128, .f32⟩ : BufTy).Contents (Elt Ideal))
    (x4 : (⟨S256x128, .f32⟩ : BufTy).Contents (Elt Ideal)) (x5 : (⟨S128, .f32⟩ : BufTy).Contents (Elt Ideal)) (x6 x7 x8 x9 x10 x11 : (⟨S600000, .i32⟩ : BufTy).Contents (Elt Ideal)) :
    val_main_v79 (F := Ideal) x0 x1 x2 x3 x4 x5 x6 x7 x8 x9 x10 x11
      = Cert.Score.rowDot (val_main_v69 (F := Ideal) x1 x4 x5 x8 x9 x10) (val_main_v76 (F := Ideal) x0 x2 x3 x6 x7 x11) :=
  tail_eq _ _

/-! ## The two results -/

variable (m : (ℓ : Loc nD τ sig) → Buf (Elt Ideal) ℓ)

/-- The reference's first result is the score of the click edges themselves. -/
theorem res_pos (c : Dev nD) :
    Cert.ReferenceIdeal.Value.res_main_v62 m c
      = Cert.Score.score (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg6)) (m ((c.tc : Thread nD τ).loc main_arg7)) := by
  rw [val_main_v62_eq, tail_pos, user_vec_pos, item_vec_pos, layer_user, layer_item]
  rfl

/-- The reference's second result is the score of the sampled pairs. -/
theorem res_neg (c : Dev nD) :
    Cert.ReferenceIdeal.Value.res_main_v79 m c
      = Cert.Score.score (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11)) := by
  rw [val_main_v79_eq, tail_neg, user_vec_neg, item_vec_neg, layer_user, layer_item]
  rfl

end Cert.ReferenceIdeal.RefValue

end
-- ==== Proof.lean ====
/-
  The kernel program and the reference compute the same two score columns over the extended reals.

  Both programs give each node type one linear layer over its features, pass the layers' outputs through the
  same host operations — rows taken along the edges, averaged over the edges' destinations, read again at the
  endpoints of the edges to be scored — and end with a row-wise dot product of the two endpoint tables. They
  differ in how the two ends are computed. The kernel program computes each layer in a region of 50 grid points,
  4000 rows a point: the product of the block with the weight matrix after both have passed through a narrower
  float format, into an accumulator of zeros, plus the bias row; over the extended reals a change of format is
  the identity and such a product is the plain sum Σₖ x(p,k) · w(k,q), which is also what the reference's matrix
  product is, so each region's output array is the reference's layer (Proof/LinValue0, LinValue1; Proof/RefValue).
  It computes each dot product in a region of 100 grid points, 6000 rows a point, as a lane sum kept as a column,
  where the reference multiplies, sums each row from 0 and lays the sums out as a column: the same sum, since
  0 + s = s (Proof/DotValue2, DotValue3; Proof/RefValue). Sums over the extended reals may be regrouped freely, so
  no input need be finite for this and the precondition is not used.

  Proof/Score states the common value as one function of the twelve arguments; Proof/KFold reads the kernel
  program's two result buffers back through @main's boundaries to it (the run that names those buffers is
  Proof/KRun), Proof/RefValue does the same for the reference's run. The three frames are the generated ones,
  the reference's being its run with the results dropped; the idealization rewrote nothing, so it preserves
  the program trivially.
-/
import proofs.«137505_j5927054869109_1_alg».proof.Defs
import proofs.«137505_j5927054869109_1_alg».proof.Proof.Gen.Kernel
import proofs.«137505_j5927054869109_1_alg».proof.Proof.Gen.Kernel.Skeleton
import proofs.«137505_j5927054869109_1_alg».proof.Proof.Gen.Kernel.Launch
import proofs.«137505_j5927054869109_1_alg».proof.Proof.Gen.Kernel.Points
import proofs.«137505_j5927054869109_1_alg».proof.Proof.Gen.Kernel.Frame
import proofs.«137505_j5927054869109_1_alg».proof.Proof.Gen.KernelIdeal
import proofs.«137505_j5927054869109_1_alg».proof.Proof.Gen.KernelIdeal.Skeleton
import proofs.«137505_j5927054869109_1_alg».proof.Proof.Gen.KernelIdeal.Launch
import proofs.«137505_j5927054869109_1_alg».proof.Proof.Gen.KernelIdeal.Points
import proofs.«137505_j5927054869109_1_alg».proof.Proof.Gen.KernelIdeal.Frame
import proofs.«137505_j5927054869109_1_alg».proof.Proof.Gen.ReferenceIdeal
import proofs.«137505_j5927054869109_1_alg».proof.Proof.Gen.Pre_finite_inputs
import proofs.«137505_j5927054869109_1_alg».proof.Proof.Gen.ReferenceIdeal.Run
import proofs.«137505_j5927054869109_1_alg».proof.Proof.Gen.ReferenceIdeal.Read
import proofs.«137505_j5927054869109_1_alg».proof.Proof.KRun
import proofs.«137505_j5927054869109_1_alg».proof.Proof.KFold
import proofs.«137505_j5927054869109_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the twelve arguments both programs end with their two results at the score of the
    click edges and the score of the sampled pairs, of those arguments. -/
theorem algebraic : Cert.algebraic_KernelIdeal_ReferenceIdeal := by
  intro m ρ m' ρ' _ hagree
  refine ⟨fun c => Cert.ReferenceIdeal.Value.res_main_v62 m' c, fun c => Cert.ReferenceIdeal.Value.res_main_v79 m' c,
    ?_, Cert.ReferenceIdeal.Value.run (F := Ideal) m' ρ'⟩
  refine (θ_run Cert.KernelIdeal.defs _ _).mono
    (fun r h c => ⟨(h c).1.trans ?_, (h c).2.1.trans ?_, (h c).2.2⟩)
    (Cert.KernelIdeal.ValueRun.run_results (F := Ideal) m ρ)
  · obtain ⟨a0, a1, a2, a3, a4, a5, a6, a7, a8, a9, a10, a11⟩ := hagree c
    show Cert.KernelIdeal.Gen.V7 m ρ c Cert.KernelIdeal.main_v70 = Cert.ReferenceIdeal.Value.res_main_v62 m' c
    rw [Cert.KernelIdeal.Fold.res_pos m ρ c, Cert.ReferenceIdeal.RefValue.res_pos m' c,
      a0, a1, a2, a3, a4, a5, a6, a7, a8, a9]
  · obtain ⟨a0, a1, a2, a3, a4, a5, a6, a7, a8, a9, a10, a11⟩ := hagree c
    show Cert.KernelIdeal.Gen.V7 m ρ c Cert.KernelIdeal.main_v71 = Cert.ReferenceIdeal.Value.res_main_v79 m' c
    rw [Cert.KernelIdeal.Fold.res_neg m ρ c, Cert.ReferenceIdeal.RefValue.res_neg m' c,
      a0, a1, a2, a3, a4, a5, a6, a7, a8, a9, a10, a11]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
